-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S11008x512x1 : Shape := ⟨3, ![11008, 512, 1]⟩
abbrev S1x65536x1x8 : Shape := ⟨4, ![1, 65536, 1, 8]⟩
abbrev S11008x1x1x1 : Shape := ⟨4, ![11008, 1, 1, 1]⟩
abbrev S11008 : Shape := ⟨1, ![11008]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S1x65536x1x8 : S_.BroadcastsInDim S1x65536x1x8 (![] : Fin 0 → Fin S1x65536x1x8.rank)
  reducesTo_S1x65536x1x8_S_d0_1_2_3 : S1x65536x1x8.ReducesTo [0, 1, 2, 3] S_
  bcast_S_S11008x1x1x1 : S_.BroadcastsInDim S11008x1x1x1 (![] : Fin 0 → Fin S11008x1x1x1.rank)
  reducesTo_S11008x1x1x1_S_d0_1_2_3 : S11008x1x1x1.ReducesTo [0, 1, 2, 3] S_
  bcast_S_S11008 : S_.BroadcastsInDim S11008 (![] : Fin 0 → Fin S11008.rank)
  reducesTo_S11008_S_d0 : S11008.ReducesTo [0] S_
  bcast_S_S11008x512x1 : S_.BroadcastsInDim S11008x512x1 (![] : Fin 0 → Fin S11008x512x1.rank)
  reducesTo_S11008x512x1_S_d0_1_2 : S11008x512x1.ReducesTo [0, 1, 2] S_

variable [Facts]

def fn_part1 {F : FTy → Type} [FloatOps F] (main_arg1 : IVec S11008x512x1 32) (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  let main_c_6 : IVec S_ 32 := constantI S_ 32 0#32
  let main_v19 : IVec S11008x512x1 32 := broadcastInDim S11008x512x1 ![] bcast_S_S11008x512x1 main_c_6
  let main_v20 : IVec S11008x512x1 1 := cmpi .sge main_arg1 main_v19
  let main_c_7 : IVec S_ 1 := constantI S_ 1 1#1
  let main_v21 : IVec S_ 1 := (fun x v => Host.reduce IntOp.andi x v reducesTo_S11008x512x1_S_d0_1_2 h_S_) main_v20 main_c_7
  let main_v22 : IVec S_ 1 := andi main_v18 main_v21
  let main_c_8 : IVec S_ 32 := constantI S_ 32 65536#32
  let main_v23 : IVec S11008x512x1 32 := broadcastInDim S11008x512x1 ![] bcast_S_S11008x512x1 main_c_8
  let main_v24 : IVec S11008x512x1 1 := cmpi .slt main_arg1 main_v23
  let main_c_9 : IVec S_ 1 := constantI S_ 1 1#1
  let main_v25 : IVec S_ 1 := (fun x v => Host.reduce IntOp.andi x v reducesTo_S11008x512x1_S_d0_1_2 h_S_) main_v24 main_c_9
  let main_v26 : IVec S_ 1 := andi main_v22 main_v25
  main_v26

def fn {F : FTy → Type} [FloatOps F] (main_arg0 : FVec F S64x4096 .f32) (main_arg1 : IVec S11008x512x1 32) (main_arg2 : FVec F S1x65536x1x8 .f32) (main_arg3 : FVec F S11008x1x1x1 .f32) (main_arg4 : FVec F S11008 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S1x65536x1x8 .f32 := Host.absf main_arg2
  let main_cst_0 : FVec F S_ .f32 := constant S_ .f32 0x7F800000#32
  let main_v5 : FVec F S1x65536x1x8 .f32 := broadcastInDim S1x65536x1x8 ![] bcast_S_S1x65536x1x8 main_cst_0
  let main_v6 : IVec S1x65536x1x8 1 := cmpf .olt main_v4 main_v5
  let main_c_1 : IVec S_ 1 := constantI S_ 1 1#1
  let main_v7 : IVec S_ 1 := (fun x v => Host.reduce IntOp.andi x v reducesTo_S1x65536x1x8_S_d0_1_2_3 h_S_) main_v6 main_c_1
  let main_v8 : IVec S_ 1 := andi main_v3 main_v7
  let main_v9 : FVec F S11008x1x1x1 .f32 := Host.absf main_arg3
  let main_cst_2 : FVec F S_ .f32 := constant S_ .f32 0x7F800000#32
  let main_v10 : FVec F S11008x1x1x1 .f32 := broadcastInDim S11008x1x1x1 ![] bcast_S_S11008x1x1x1 main_cst_2
  let main_v11 : IVec S11008x1x1x1 1 := cmpf .olt main_v9 main_v10
  let main_c_3 : IVec S_ 1 := constantI S_ 1 1#1
  let main_v12 : IVec S_ 1 := (fun x v => Host.reduce IntOp.andi x v reducesTo_S11008x1x1x1_S_d0_1_2_3 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_arg1 main_v13 main_v16
-- ==== Kernel.lean ====
abbrev S64x4096 : Shape := ⟨2, ![64, 4096]⟩
abbrev S11008x512x1 : Shape := ⟨3, ![11008, 512, 1]⟩
abbrev S1x65536x1x8 : Shape := ⟨4, ![1, 65536, 1, 8]⟩
abbrev S11008x1x1x1 : Shape := ⟨4, ![11008, 1, 1, 1]⟩
abbrev S11008 : Shape := ⟨1, ![11008]⟩
abbrev S65536x8 : Shape := ⟨2, ![65536, 8]⟩
abbrev S11008x512 : Shape := ⟨2, ![11008, 512]⟩
abbrev S_ : Shape := ⟨0, ![]⟩
abbrev S1 : Shape := ⟨1, ![1]⟩
abbrev S1x1x1 : Shape := ⟨3, ![1, 1, 1]⟩
abbrev S11008x512x8 : Shape := ⟨3, ![11008, 512, 8]⟩
abbrev S11008x4096 : Shape := ⟨2, ![11008, 4096]⟩
abbrev S1x11008 : Shape := ⟨2, ![1, 11008]⟩
abbrev S64x11008 : Shape := ⟨2, ![64, 11008]⟩
abbrev S2048x4096 : Shape := ⟨2, ![2048, 4096]⟩
abbrev S1x2048 : Shape := ⟨2, ![1, 2048]⟩
abbrev S64x2048 : Shape := ⟨2, ![64, 2048]⟩

abbrev nBuf : Space → Nat
  | .hbm => 36
  | .vmem => 9
  | .smem => 0
  | _ => 0

abbrev bufTy : (tb : Table) → Fin (tcTables nBuf tb) → BufTy
  | .hbm, ⟨0, _⟩ => ⟨S64x4096, .f32⟩
  | .hbm, ⟨1, _⟩ => ⟨S11008x512x1, .i32⟩
  | .hbm, ⟨2, _⟩ => ⟨S1x65536x1x8, .f32⟩
  | .hbm, ⟨3, _⟩ => ⟨S11008x1x1x1, .f32⟩
  | .hbm, ⟨4, _⟩ => ⟨S11008, .f32⟩
  | .hbm, ⟨5, _⟩ => ⟨S65536x8, .f32⟩
  | .hbm, ⟨6, _⟩ => ⟨S11008x512, .i32⟩
  | .hbm, ⟨7, _⟩ => ⟨S_, .i32⟩
  | .hbm, ⟨8, _⟩ => ⟨S11008x512, .i32⟩
  | .hbm, ⟨9, _⟩ => ⟨S11008x512, .i1⟩
  | .hbm, ⟨10, _⟩ => ⟨S_, .i32⟩
  | .hbm, ⟨11, _⟩ => ⟨S11008x512, .i32⟩
  | .hbm, ⟨12, _⟩ => ⟨S11008x512, .i32⟩
  | .hbm, ⟨13, _⟩ => ⟨S11008x512, .i32⟩
  | .hbm, ⟨14, _⟩ => ⟨S11008x512x1, .i32⟩
  | .hbm, ⟨15, _⟩ => ⟨S1, .i32⟩
  | .hbm, ⟨16, _⟩ => ⟨S_, .i32⟩
  | .hbm, ⟨17, _⟩ => ⟨S11008x512x1, .i32⟩
  | .hbm, ⟨18, _⟩ => ⟨S11008x512x1, .i1⟩
  | .hbm, ⟨19, _⟩ => ⟨S1x1x1, .i32⟩
  | .hbm, ⟨20, _⟩ => ⟨S11008x512x1, .i32⟩
  | .hbm, ⟨21, _⟩ => ⟨S11008x512x1, .i1⟩
  | .hbm, ⟨22, _⟩ => ⟨S11008x512x1, .i1⟩
  | .hbm, ⟨23, _⟩ => ⟨S_, .i1⟩
  | .hbm, ⟨24, _⟩ => ⟨S11008x512, .i1⟩
  | .hbm, ⟨25, _⟩ => ⟨S11008x512x8, .f32⟩
  | .hbm, ⟨26, _⟩ => ⟨S11008x512x8, .i1⟩
  | .hbm, ⟨27, _⟩ => ⟨S_, .f32⟩
  | .hbm, ⟨28, _⟩ => ⟨S11008x512x8, .f32⟩
  | .hbm, ⟨29, _⟩ => ⟨S11008x512x8, .f32⟩
  | .hbm, ⟨30, _⟩ => ⟨S11008x4096, .f32⟩
  | .hbm, ⟨31, _⟩ => ⟨S11008x4096, .bf16⟩
  | .hbm, ⟨32, _⟩ => ⟨S64x4096, .bf16⟩
  | .hbm, ⟨33, _⟩ => ⟨S1x11008, .f32⟩
  | .hbm, ⟨34, _⟩ => ⟨S1x11008, .f32⟩
  | .hbm, ⟨35, _⟩ => ⟨S64x11008, .f32⟩
  | .local _ .vmem, ⟨0, _⟩ => ⟨S64x4096, .bf16⟩
  | .local _ .vmem, ⟨1, _⟩ => ⟨S2048x4096, .bf16⟩
  | .local _ .vmem, ⟨2, _⟩ => ⟨S2048x4096, .bf16⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S64x2048, .f32⟩
  | .local _ .vmem, ⟨8, _⟩ => ⟨S64x2048, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x65536x1x8_S65536x8 : S1x65536x1x8.ShapeCasts S65536x8
  shapeCasts_S11008x512x1_S11008x512 : S11008x512x1.ShapeCasts S11008x512
  bcast_S_S11008x512 : S_.BroadcastsInDim S11008x512 (![] : Fin 0 → Fin S11008x512.rank)
  bcast_S11008x512_S11008x512x1_0_1 : S11008x512.BroadcastsInDim S11008x512x1 (![0, 1] : Fin 2 → Fin S11008x512x1.rank)
  bcast_S_S11008x512x1 : S_.BroadcastsInDim S11008x512x1 (![] : Fin 0 → Fin S11008x512x1.rank)
  bcast_S1_S1x1x1_2 : S1.BroadcastsInDim S1x1x1 (![2] : Fin 1 → Fin S1x1x1.rank)
  bcast_S1x1x1_S11008x512x1_0_1_2 : S1x1x1.BroadcastsInDim S11008x512x1 (![0, 1, 2] : Fin 3 → Fin S11008x512x1.rank)
  reducesTo_S11008x512x1_S11008x512_d2 : S11008x512x1.ReducesTo [2] S11008x512
  h_S_ : 0 < S_.numel
  bcast_S11008x512_S11008x512x8_0_1 : S11008x512.BroadcastsInDim S11008x512x8 (![0, 1] : Fin 2 → Fin S11008x512x8.rank)
  bcast_S_S11008x512x8 : S_.BroadcastsInDim S11008x512x8 (![] : Fin 0 → Fin S11008x512x8.rank)
  shapeCasts_S11008x512x8_S11008x4096 : S11008x512x8.ShapeCasts S11008x4096
  bitsLt_bf16_f32 : FTy.bits .bf16 < FTy.bits .f32
  shapeCasts_S11008x1x1x1_S1x11008 : S11008x1x1x1.ShapeCasts S1x11008
  shapeCasts_S11008_S1x11008 : S11008.ShapeCasts S1x11008
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  inb_S64x2048_S64x2048_0_0 : ∀ a, (![0, 0] : Fin 2 → Nat) a + S64x2048.size a ≤ S64x2048.size a
  h_S64x2048 : 0 < S64x2048.numel
  gather_S65536x8_S11008x512x1_S11008x512x8_2_0_n_n_0_2_18_wf : GatherDims.WF S65536x8 S11008x512x1 S11008x512x8 [2] [0] [] [0] [] 2 ![1, 8]
  dot_S64x4096_S2048x4096_S64x2048_1_1_0_0_n_n_wf : DotDims.WF S64x4096 S2048x4096 S64x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .bf16 = 32 ∨ (Rect.block (s := S64x4096) S64x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x4096.size a < S11008x4096.size a
  hwx0_1 : ∀ i : grid0.Coords, EltTy.bits .bf16 = 32 ∨ (Rect.unit (s := S11008x4096) (fun a => cc0_transform_1 i a * S2048x4096.size a) (fun a => (Pipeline.Clip.of (cc0_transform_1 i a) (S2048x4096.size a) (S11008x4096.size a)).extent (S2048x4096.size a)) fun a => Pipeline.Clip.inb (Pipeline.Clip.ok_of (hstart0_1 i a))).WholeWords (EltTy.packing .bf16)
  hwxs0_1 : ∀ i : grid0.Coords, EltTy.bits .bf16 = 32 ∨ (Rect.unit (s := S2048x4096) (fun _ => 0) (fun a => (Pipeline.Clip.of (cc0_transform_1 i a) (S2048x4096.size a) (S11008x4096.size a)).extent (S2048x4096.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x2048.size a < S1x11008.size a
  hwx0_2 : ∀ i : grid0.Coords, EltTy.bits .f32 = 32 ∨ (Rect.unit (s := S1x11008) (fun a => cc0_transform_2 i a * S1x2048.size a) (fun a => (Pipeline.Clip.of (cc0_transform_2 i a) (S1x2048.size a) (S1x11008.size a)).extent (S1x2048.size a)) fun a => Pipeline.Clip.inb (Pipeline.Clip.ok_of (hstart0_2 i a))).WholeWords (EltTy.packing .f32)
  hwxs0_2 : ∀ i : grid0.Coords, EltTy.bits .f32 = 32 ∨ (Rect.unit (s := S1x2048) (fun _ => 0) (fun a => (Pipeline.Clip.of (cc0_transform_2 i a) (S1x2048.size a) (S1x11008.size a)).extent (S1x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x2048.size a < S1x11008.size a
  hwx0_3 : ∀ i : grid0.Coords, EltTy.bits .f32 = 32 ∨ (Rect.unit (s := S1x11008) (fun a => cc0_transform_3 i a * S1x2048.size a) (fun a => (Pipeline.Clip.of (cc0_transform_3 i a) (S1x2048.size a) (S1x11008.size a)).extent (S1x2048.size a)) fun a => Pipeline.Clip.inb (Pipeline.Clip.ok_of (hstart0_3 i a))).WholeWords (EltTy.packing .f32)
  hwxs0_3 : ∀ i : grid0.Coords, EltTy.bits .f32 = 32 ∨ (Rect.unit (s := S1x2048) (fun _ => 0) (fun a => (Pipeline.Clip.of (cc0_transform_3 i a) (S1x2048.size a) (S1x11008.size a)).extent (S1x2048.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S64x2048.size a < S64x11008.size a
  hwx0_4 : ∀ i : grid0.Coords, EltTy.bits .f32 = 32 ∨ (Rect.unit (s := S64x11008) (fun a => cc0_transform_4 i a * S64x2048.size a) (fun a => (Pipeline.Clip.of (cc0_transform_4 i a) (S64x2048.size a) (S64x11008.size a)).extent (S64x2048.size a)) fun a => Pipeline.Clip.inb (Pipeline.Clip.ok_of (hstart0_4 i a))).WholeWords (EltTy.packing .f32)
  hwxs0_4 : ∀ i : grid0.Coords, EltTy.bits .f32 = 32 ∨ (Rect.unit (s := S64x2048) (fun _ => 0) (fun a => (Pipeline.Clip.of (cc0_transform_4 i a) (S64x2048.size a) (S64x11008.size a)).extent (S64x2048.size a)) fun a => (Nat.zero_add _).trans_le (Pipeline.Clip.extent_le (Pipeline.Clip.ok_of (hstart0_4 i a)))).WholeWords (EltTy.packing .f32)

variable [Facts₀]

def gather_S65536x8_S11008x512x1_S11008x512x8_2_0_n_n_0_2_18 : GatherDims S65536x8 S11008x512x1 S11008x512x8 where
  offsetDims := [2]
  collapsedSliceDims := [0]
  operandBatchingDims := []
  startIndicesBatchingDims := []
  startIndexMap := [0]
  indexVectorDim := 2
  sliceSizes := ![1, 8]
  wf := gather_S65536x8_S11008x512x1_S11008x512x8_2_0_n_n_0_2_18_wf
def dot_S64x4096_S2048x4096_S64x2048_1_1_0_0_n_n : DotDims S64x4096 S2048x4096 S64x2048 where
  lhsContracting := [1]
  rhsContracting := [1]
  lhsNonContracting := [0]
  rhsNonContracting := [0]
  lhsBatch := []
  rhsBatch := []
  wf := dot_S64x4096_S2048x4096_S64x2048_1_1_0_0_n_n_wf

abbrev win0_0 : Pipeline.Window sig grid0 :=
  Pipeline.Window.ofSpec (Memref.whole main_v5) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v4) S2048x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v6) S1x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v7) S1x2048.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v8) S64x2048.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x4096 : Shape := ⟨2, ![64, 4096]⟩
abbrev S11008x512x1 : Shape := ⟨3, ![11008, 512, 1]⟩
abbrev S1x65536x1x8 : Shape := ⟨4, ![1, 65536, 1, 8]⟩
abbrev S11008x1x1x1 : Shape := ⟨4, ![11008, 1, 1, 1]⟩
abbrev S11008 : Shape := ⟨1, ![11008]⟩
abbrev S65536x1x8 : Shape := ⟨3, ![65536, 1, 8]⟩
abbrev S11008x512 : Shape := ⟨2, ![11008, 512]⟩
abbrev S_ : Shape := ⟨0, ![]⟩
abbrev S11008x512x1x8 : Shape := ⟨4, ![11008, 512, 1, 8]⟩
abbrev S11008x1x512x8 : Shape := ⟨4, ![11008, 1, 512, 8]⟩
abbrev S11008x4096 : Shape := ⟨2, ![11008, 4096]⟩
abbrev S4096x11008 : Shape := ⟨2, ![4096, 11008]⟩
abbrev S64x11008 : Shape := ⟨2, ![64, 11008]⟩
abbrev S1x11008 : Shape := ⟨2, ![1, 11008]⟩

abbrev nBuf : Space → Nat
  | .hbm => 25
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S11008x512x1, .i32⟩
  | .hbm, ⟨2, _⟩ => ⟨S1x65536x1x8, .f32⟩
  | .hbm, ⟨3, _⟩ => ⟨S11008x1x1x1, .f32⟩
  | .hbm, ⟨4, _⟩ => ⟨S11008, .f32⟩
  | .hbm, ⟨5, _⟩ => ⟨S65536x1x8, .f32⟩
  | .hbm, ⟨6, _⟩ => ⟨S11008x512, .i32⟩
  | .hbm, ⟨7, _⟩ => ⟨S_, .i32⟩
  | .hbm, ⟨8, _⟩ => ⟨S11008x512, .i32⟩
  | .hbm, ⟨9, _⟩ => ⟨S11008x512, .i1⟩
  | .hbm, ⟨10, _⟩ => ⟨S_, .i32⟩
  | .hbm, ⟨11, _⟩ => ⟨S11008x512, .i32⟩
  | .hbm, ⟨12, _⟩ => ⟨S11008x512, .i32⟩
  | .hbm, ⟨13, _⟩ => ⟨S11008x512, .i32⟩
  | .hbm, ⟨14, _⟩ => ⟨S11008x512x1, .i32⟩
  | .hbm, ⟨15, _⟩ => ⟨S11008x512x1x8, .f32⟩
  | .hbm, ⟨16, _⟩ => ⟨S11008x512x1x8, .f32⟩
  | .hbm, ⟨17, _⟩ => ⟨S11008x512x1x8, .f32⟩
  | .hbm, ⟨18, _⟩ => ⟨S11008x1x512x8, .f32⟩
  | .hbm, ⟨19, _⟩ => ⟨S11008x4096, .f32⟩
  | .hbm, ⟨20, _⟩ => ⟨S4096x11008, .f32⟩
  | .hbm, ⟨21, _⟩ => ⟨S64x11008, .f32⟩
  | .hbm, ⟨22, _⟩ => ⟨S1x11008, .f32⟩
  | .hbm, ⟨23, _⟩ => ⟨S64x11008, .f32⟩
  | .hbm, ⟨24, _⟩ => ⟨S64x11008, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  shapeCasts_S1x65536x1x8_S65536x1x8 : S1x65536x1x8.ShapeCasts S65536x1x8
  shapeCasts_S11008x512x1_S11008x512 : S11008x512x1.ShapeCasts S11008x512
  bcast_S_S11008x512 : S_.BroadcastsInDim S11008x512 (![] : Fin 0 → Fin S11008x512.rank)
  bcast_S11008x512_S11008x512x1_0_1 : S11008x512.BroadcastsInDim S11008x512x1 (![0, 1] : Fin 2 → Fin S11008x512x1.rank)
  bcast_S11008x1x1x1_S11008x512x1x8_0_1_2_3 : S11008x1x1x1.BroadcastsInDim S11008x512x1x8 (![0, 1, 2, 3] : Fin 4 → Fin S11008x512x1x8.rank)
  transposes_S11008x512x1x8_S11008x1x512x8_0_2_1_3 : S11008x512x1x8.Transposes [0, 2, 1, 3] S11008x1x512x8
  shapeCasts_S11008x1x512x8_S11008x4096 : S11008x1x512x8.ShapeCasts S11008x4096
  transposes_S11008x4096_S4096x11008_1_0 : S11008x4096.Transposes [1, 0] S4096x11008
  bcast_S11008_S1x11008_1 : S11008.BroadcastsInDim S1x11008 (![1] : Fin 1 → Fin S1x11008.rank)
  bcast_S1x11008_S64x11008_0_1 : S1x11008.BroadcastsInDim S64x11008 (![0, 1] : Fin 2 → Fin S64x11008.rank)
  gather_S65536x1x8_S11008x512x1_S11008x512x1x8_23_0_n_n_0_2_118_wf : GatherDims.WF S65536x1x8 S11008x512x1 S11008x512x1x8 [2, 3] [0] [] [0] [] 2 ![1, 1, 8]
  dot_S64x4096_S4096x11008_S64x11008_1_0_0_1_n_n_wf : DotDims.WF S64x4096 S4096x11008 S64x11008 [1] [0] [0] [1] [] []

variable [Facts₀]

def gather_S65536x1x8_S11008x512x1_S11008x512x1x8_23_0_n_n_0_2_118 : GatherDims S65536x1x8 S11008x512x1 S11008x512x1x8 where
  offsetDims := [2, 3]
  collapsedSliceDims := [0]
  operandBatchingDims := []
  startIndicesBatchingDims := []
  startIndexMap := [0]
  indexVectorDim := 2
  sliceSizes := ![1, 1, 8]
  wf := gather_S65536x1x8_S11008x512x1_S11008x512x1x8_23_0_n_n_0_2_118_wf
def dot_S64x4096_S4096x11008_S64x11008_1_0_0_1_n_n : DotDims S64x4096 S4096x11008 S64x11008 where
  lhsContracting := [1]
  rhsContracting := [0]
  lhsNonContracting := [0]
  rhsNonContracting := [1]
  lhsBatch := []
  rhsBatch := []
  wf := dot_S64x4096_S4096x11008_S64x11008_1_0_0_1_n_n_wf

class Facts : Prop extends Facts₀ where

variable [Facts]
-- ==== Proof.BodyK.lean ====
import proofs.«409782_j5781025980673_3_alg».proof.Proof.Gen.Kernel.Frame
import proofs.«409782_j5781025980673_3_alg».proof.Proof.Gen.Kernel.Skeleton
import Idealize.ShloMosaic.Lib.Pipeline.FrameBody
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each is the whole of its staging block -/

abbrev rX : Rect S64x4096 := Rect.unit (s := S64x4096) ![0, 0] S64x4096.size inb_S64x4096_S64x4096_0_0
abbrev rW : Rect S2048x4096 := Rect.unit (s := S2048x4096) ![0, 0] S2048x4096.size inb_S2048x4096_S2048x4096_0_0
abbrev rV : Rect S1x2048 := Rect.unit (s := S1x2048) ![0, 0] S1x2048.size inb_S1x2048_S1x2048_0_0
abbrev rO : Rect S64x2048 := Rect.unit (s := S64x2048) ![0, 0] S64x2048.size inb_S64x2048_S64x2048_0_0

/-- What the body leaves in the result's staging block, from what the four input blocks hold: its one store, of the
    product of the activation block with the transposed weight block, scaled column by column and shifted by the bias. -/
def outBlk (x0 : Vec F S64x4096 .bf16) (x1 : Vec F S2048x4096 .bf16) (x2 : Vec F S1x2048 .f32) (x3 : Vec F S1x2048 .f32) :
    Vec F S64x2048 .f32 :=
  View.canon [⟨rO, k0_pay1 (View.ld x0 rX) (View.ld x1 rW) (View.ld x2 rV) (View.ld x3 rV)⟩]

/-- The one store covers the result block. -/
theorem coverO (p0 : Vec F S64x2048 .f32) (y : S64x2048.Idx) :
    ∃ pc ∈ ([⟨rO, p0⟩] : List (View.Piece (Elt F) S64x2048 .f32)), y ∈ pc.1.set :=
  View.cover_of_tiled [⟨rO, p0⟩] S64x2048.size (by rfl) y

set_option maxHeartbeats 1000000 in
/-- The kernel body on whole staging blocks, the four inputs' at any contents and the result's at anything: it reads the
    four, reads (and ignores) the result's, stores the product block, and returns with the inputs' blocks as they were. -/
theorem sound_kernel (c : Dev nD) (E : Set ℕ) (i : grid0.Coords)
    (arg1 : Memref sig .tc .vmem S64x4096 .bf16) (harg1 : arg1.IsWhole) (arg2 : Memref sig .tc .vmem S2048x4096 .bf16) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S64x2048 .f32) (harg5 : arg5.IsWhole)
    (x0 : Vec F S64x4096 .bf16) (x1 : Vec F S2048x4096 .bf16) (x2 : Vec F S1x2048 .f32) (x3 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlk x0 x1 x2 x3)) -∗ K ⟨⟩))
      ⊢ wp frame (wpE (defs₀ (F := F)) Variants.none c none) E (cc0__matmul_kernel i arg1 harg1 arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverO _)

/-! ## The frame, from proof data that says nothing of what the body leaves

The frame claim reads no staging block and not the result array, so the proof data may allow the body to leave anything
anywhere: the obligation is then only that the body runs, on whatever the blocks hold. -/

/-- The relational proof data on core `c`: the arrays as the region finds them, any contents left in any block, the
    class's invariant (the scoped rest and the generator register, untouched), nothing owed, full shares. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body at point `t` on blocks holding any `Y`: it runs, and hands every block back. -/
theorem rsound_body (c : Dev nD) (t : Fin cfg0.N) (Y : (w : Fin cfg0.W) → (cfg0.win w).block.Idx → Elt F (cfg0.win w).elt) :
    iprop((rdats m c).Φ t.castSucc ∗ (rdats m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4))
      ⊢ wp frame (wpE (defs₀ (F := F)) Variants.none c none) Set.univ (bodyAt0 t) (fun _ =>
          iprop((rdats m c).Φ t.succ ∗ (rdats m c).owesAt () t.succ
            ∗ (∃ X, ⌜(rdats m c).after 0 t (Y 0) X⌝ ∗ owns (c : Thread nD τ) (st0_0 t) fullShare X)
            ∗ (∃ X, ⌜(rdats m c).after 1 t (Y 1) X⌝ ∗ owns (c : Thread nD τ) (st0_1 t) fullShare X)
            ∗ (∃ X, ⌜(rdats m c).after 2 t (Y 2) X⌝ ∗ owns (c : Thread nD τ) (st0_2 t) fullShare X)
            ∗ (∃ X, ⌜(rdats m c).after 3 t (Y 3) X⌝ ∗ owns (c : Thread nD τ) (st0_3 t) fullShare X)
            ∗ (∃ X, ⌜(rdats m c).after 4 t (Y 4) X⌝ ∗ owns (c : Thread nD τ) (st0_4 t) fullShare X))) := by
  unfold bodyAt0
  rw [show (rdats m c).Φ t.succ = (rdats m c).Φ t.castSucc from rfl,
    show (rdats m c).owesAt () t.succ = (rdats m c).owesAt () t.castSucc from rfl]
  iintro ⟨HΦ, Ho, H0, H1, H2, H3, H4⟩
  iapply (sound_kernel c Set.univ _ _ _ _ _ _ _ _ _ _ _ (Y 0) (Y 1) (Y 2) (Y 3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  · iexists (outBlk (Y 0) (Y 1) (Y 2) (Y 3)); isplitr; · ipureintro; trivial
    iexact H4

/-- The library's relational body obligation, at every point. -/
theorem rbody_obligation (c : Dev nD) : (rdats (F := F) m c).BodyObligation (defs₀ (F := F)) Variants.none () Set.univ := fun t Y _ => by
  rw [bigSep_W0, bigSep_W0]
  exact rsound_body m c t Y

set_option backward.isDefEq.respectTransparency.types false in
/-- At the compiled mesh, for any values, from any memory with zero counters: every weakly fair execution of @main
    terminates without a fault, and every unscoped buffer that is no window's array ends as the region found it. -/
theorem rrun_main : θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := rbody_obligation m) (hshare := fun c w => by unfold RDat.share; split <;> rfl)
    (howed := fun _ _ => rfl) (V := V m) (hmain := hmain m Variants.none) (hA := fun _ _ => rfl) (hΦ := fun _ _ => rfl)

/-- THE FRAME: the program runs to its end, faults nowhere, and leaves its five argument arrays as they were — none is
    a window's array, and no host operation writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (rrun_main m ρ)

end Cert.Kernel.Body

end
-- ==== Proof.BodyKI.lean ====
import proofs.«409782_j5781025980673_3_alg».proof.Proof.Gen.KernelIdeal.Frame
import proofs.«409782_j5781025980673_3_alg».proof.Proof.Gen.KernelIdeal.Skeleton
import Idealize.ShloMosaic.Lib.Pipeline.FrameBody
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each is the whole of its staging block -/

abbrev rX : Rect S64x4096 := Rect.unit (s := S64x4096) ![0, 0] S64x4096.size inb_S64x4096_S64x4096_0_0
abbrev rW : Rect S2048x4096 := Rect.unit (s := S2048x4096) ![0, 0] S2048x4096.size inb_S2048x4096_S2048x4096_0_0
abbrev rV : Rect S1x2048 := Rect.unit (s := S1x2048) ![0, 0] S1x2048.size inb_S1x2048_S1x2048_0_0
abbrev rO : Rect S64x2048 := Rect.unit (s := S64x2048) ![0, 0] S64x2048.size inb_S64x2048_S64x2048_0_0

/-- What the body leaves in the result's staging block, from what the four input blocks hold: its one store, of the
    product of the activation block with the transposed weight block, scaled column by column and shifted by the bias. -/
def outBlk (x0 : Vec F S64x4096 .bf16) (x1 : Vec F S2048x4096 .bf16) (x2 : Vec F S1x2048 .f32) (x3 : Vec F S1x2048 .f32) :
    Vec F S64x2048 .f32 :=
  View.canon [⟨rO, k0_pay1 (View.ld x0 rX) (View.ld x1 rW) (View.ld x2 rV) (View.ld x3 rV)⟩]

/-- The one store covers the result block. -/
theorem coverO (p0 : Vec F S64x2048 .f32) (y : S64x2048.Idx) :
    ∃ pc ∈ ([⟨rO, p0⟩] : List (View.Piece (Elt F) S64x2048 .f32)), y ∈ pc.1.set :=
  View.cover_of_tiled [⟨rO, p0⟩] S64x2048.size (by rfl) y

set_option maxHeartbeats 1000000 in
/-- The kernel body on whole staging blocks, the four inputs' at any contents and the result's at anything: it reads the
    four, reads (and ignores) the result's, stores the product block, and returns with the inputs' blocks as they were. -/
theorem sound_kernel (c : Dev nD) (E : Set ℕ) (i : grid0.Coords)
    (arg1 : Memref sig .tc .vmem S64x4096 .bf16) (harg1 : arg1.IsWhole) (arg2 : Memref sig .tc .vmem S2048x4096 .bf16) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S64x2048 .f32) (harg5 : arg5.IsWhole)
    (x0 : Vec F S64x4096 .bf16) (x1 : Vec F S2048x4096 .bf16) (x2 : Vec F S1x2048 .f32) (x3 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outBlk x0 x1 x2 x3)) -∗ K ⟨⟩))
      ⊢ wp frame (wpE (defs₀ (F := F)) Variants.none c none) E (cc0__matmul_kernel i arg1 harg1 arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverO _)

/-! ## The frame, from proof data that says nothing of what the body leaves

The frame claim reads no staging block and not the result array, so the proof data may allow the body to leave anything
anywhere: the obligation is then only that the body runs, on whatever the blocks hold. -/

/-- The relational proof data on core `c`: the arrays as the region finds them, any contents left in any block, the
    class's invariant (the scoped rest and the generator register, untouched), nothing owed, full shares. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body at point `t` on blocks holding any `Y`: it runs, and hands every block back. -/
theorem rsound_body (c : Dev nD) (t : Fin cfg0.N) (Y : (w : Fin cfg0.W) → (cfg0.win w).block.Idx → Elt F (cfg0.win w).elt) :
    iprop((rdats m c).Φ t.castSucc ∗ (rdats m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4))
      ⊢ wp frame (wpE (defs₀ (F := F)) Variants.none c none) Set.univ (bodyAt0 t) (fun _ =>
          iprop((rdats m c).Φ t.succ ∗ (rdats m c).owesAt () t.succ
            ∗ (∃ X, ⌜(rdats m c).after 0 t (Y 0) X⌝ ∗ owns (c : Thread nD τ) (st0_0 t) fullShare X)
            ∗ (∃ X, ⌜(rdats m c).after 1 t (Y 1) X⌝ ∗ owns (c : Thread nD τ) (st0_1 t) fullShare X)
            ∗ (∃ X, ⌜(rdats m c).after 2 t (Y 2) X⌝ ∗ owns (c : Thread nD τ) (st0_2 t) fullShare X)
            ∗ (∃ X, ⌜(rdats m c).after 3 t (Y 3) X⌝ ∗ owns (c : Thread nD τ) (st0_3 t) fullShare X)
            ∗ (∃ X, ⌜(rdats m c).after 4 t (Y 4) X⌝ ∗ owns (c : Thread nD τ) (st0_4 t) fullShare X))) := by
  unfold bodyAt0
  rw [show (rdats m c).Φ t.succ = (rdats m c).Φ t.castSucc from rfl,
    show (rdats m c).owesAt () t.succ = (rdats m c).owesAt () t.castSucc from rfl]
  iintro ⟨HΦ, Ho, H0, H1, H2, H3, H4⟩
  iapply (sound_kernel c Set.univ _ _ _ _ _ _ _ _ _ _ _ (Y 0) (Y 1) (Y 2) (Y 3) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  · iexists (outBlk (Y 0) (Y 1) (Y 2) (Y 3)); isplitr; · ipureintro; trivial
    iexact H4

/-- The library's relational body obligation, at every point. -/
theorem rbody_obligation (c : Dev nD) : (rdats (F := F) m c).BodyObligation (defs₀ (F := F)) Variants.none () Set.univ := fun t Y _ => by
  rw [bigSep_W0, bigSep_W0]
  exact rsound_body m c t Y

set_option backward.isDefEq.respectTransparency.types false in
/-- At the compiled mesh, for any values, from any memory with zero counters: every weakly fair execution of @main
    terminates without a fault, and every unscoped buffer that is no window's array ends as the region found it. -/
theorem rrun_main : θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := rbody_obligation m) (hshare := fun c w => by unfold RDat.share; split <;> rfl)
    (howed := fun _ _ => rfl) (V := V m) (hmain := hmain m Variants.none) (hA := fun _ _ => rfl) (hΦ := fun _ _ => rfl)

/-- THE FRAME: the program runs to its end, faults nowhere, and leaves its five argument arrays as they were — none is
    a window's array, and no host operation writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (rrun_main m ρ)

end Cert.KernelIdeal.Body

end
-- ==== Proof.DatKI.lean ====
/-
  The exact proof data of the one pipeline, at the extended reals.

  The weight, scale and bias windows' last blocks overhang their arrays, so after a fetch the tail of a staging block
  holds values nothing names. The proof data therefore states each such block as the array's block FILLED OUT with a
  fixed value (zero) past the array's end; the body obligation is asked only on the part inside the array. The result
  block is the body's arithmetic on those filled-out blocks; its part inside the array does not depend on the filling,
  because output column n reads weight row n, scale n and bias n only.
-/
import proofs.«409782_j5781025980673_3_alg».proof.Proof.BodyKI
import Idealize.ShloMosaic.Lib.ValueIdx
import Idealize.ShloMosaic.Lib.Pipeline.Value

set_option maxRecDepth 16384

noncomputable section

open scoped BigOperators

namespace Cert.KernelIdeal.Out

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The weight block at point `t`: the array's rows inside the array, zero below them. -/
def wblk (c : Dev nD) (t : Fin cfg0.N) : Vec Ideal S2048x4096 .bf16 :=
  win0_1.fill (grid0.coords t) (fun _ => (0 : EReal)) (iblk m c 1 t)
/-- The scale block at point `t`: the array's columns inside the array, zero past them. -/
def sblk (c : Dev nD) (t : Fin cfg0.N) : Vec Ideal S1x2048 .f32 :=
  win0_2.fill (grid0.coords t) (fun _ => (0 : EReal)) (iblk m c 2 t)
/-- The bias block at point `t`, likewise. -/
def bblk (c : Dev nD) (t : Fin cfg0.N) : Vec Ideal S1x2048 .f32 :=
  win0_3.fill (grid0.coords t) (fun _ => (0 : EReal)) (iblk m c 3 t)
/-- The result block at point `t`: the body's arithmetic on the four blocks above. -/
def oblk (c : Dev nD) (t : Fin cfg0.N) : Vec Ideal S64x2048 .f32 :=
  outBlk (iblk m c 0 t) (wblk m c t) (sblk m c t) (bblk m c t)

/-- The proof data on core `c`: the arrays as the region finds them; after the body the activation block (the whole
    array, never refetched), the three filled-out blocks and the result block; the class's invariant; nothing owed;
    full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wblk m c t
    | ⟨2, _⟩ => sblk m c t
    | ⟨3, _⟩ => bblk m c t
    | ⟨4, _⟩ => oblk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wblk m c t := by dsimp only [dats]
theorem after0_2 (c : Dev nD) (t : Fin cfg0.N) : (dats m 0 c).after 2 t = sblk m c t := by dsimp only [dats]
theorem after0_3 (c : Dev nD) (t : Fin cfg0.N) : (dats m 0 c).after 3 t = bblk m c t := by dsimp only [dats]
theorem after0_4 (c : Dev nD) (t : Fin cfg0.N) : (dats m 0 c).after 4 t = oblk m c t := by dsimp only [dats]

/-! ## The result array as one function of the arrays the region finds -/

/-- The four arrays the region stages, as the host operations before it left them, at their literal types: the
    activations, the dequantised weights, the scales and the bias laid out as rows. -/
abbrev vX (c : Dev nD) : S64x4096.Idx → EReal := V (F := Ideal) m c main_v5
abbrev vW (c : Dev nD) : S11008x4096.Idx → EReal := V (F := Ideal) m c main_v4
abbrev vS (c : Dev nD) : S1x11008.Idx → EReal := V (F := Ideal) m c main_v6
abbrev vB (c : Dev nD) : S1x11008.Idx → EReal := V (F := Ideal) m c main_v7

/-- Entry (t, n) of the result: activation row t against weight row n, times scale n, plus bias n. -/
def gk (c : Dev nD) (t : Fin 64) (n : Fin 11008) : EReal :=
  (∑ d : Fin 4096, vX m c (ix2 t d) * vW m c (ix2 n d)) * vS m c (ix2 (0 : Fin 1) n) + vB m c (ix2 (0 : Fin 1) n)

/-- The whole result array. -/
def Gk (c : Dev nD) : S64x11008.Idx → EReal := fun i => gk m c ⟨(i 0).val, (i 0).isLt⟩ ⟨(i 1).val, (i 1).isLt⟩

end Cert.KernelIdeal.Out

end
-- ==== Proof.PayIdeal.lean ====
import proofs.«409782_j5781025980673_3_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.Dequant

open Idealize.ShloMosaic Idealize.ShloMosaic.ValueIdx Cert.KernelIdeal Cert.KernelIdeal.Gen

/-- The left operand's index on its free axis 0 is the output's row coordinate. -/
theorem lhs_pay_0 (i : S64x2048.Idx) (q : dot_S64x4096_S2048x4096_S64x2048_1_1_0_0_n_n.contr.Idx) :
    (dot_S64x4096_S2048x4096_S64x2048_1_1_0_0_n_n.lhsIdx i q 0).val = (i 0).val := by
  unfold DotDims.lhsIdx
  rw [dif_neg (show ¬(0 : Fin S64x4096.rank) ∈ dot_S64x4096_S2048x4096_S64x2048_1_1_0_0_n_n.lhsBatch by decide), dif_pos (show (0 : Fin S64x4096.rank) ∈ dot_S64x4096_S2048x4096_S64x2048_1_1_0_0_n_n.lhsNonContracting by decide)]
  rfl
/-- The left operand's index on its contracting axis 1 is the contraction position. -/
theorem lhs_pay_1 (i : S64x2048.Idx) (q : dot_S64x4096_S2048x4096_S64x2048_1_1_0_0_n_n.contr.Idx) :
    (dot_S64x4096_S2048x4096_S64x2048_1_1_0_0_n_n.lhsIdx i q 1).val = (q ⟨0, by decide⟩).val :=
  dot_S64x4096_S2048x4096_S64x2048_1_1_0_0_n_n.lhsIdx_val_of_single rfl i q
/-- The right operand's index on its free axis 0 is the output's column coordinate. -/
theorem rhs_pay_0 (i : S64x2048.Idx) (q : dot_S64x4096_S2048x4096_S64x2048_1_1_0_0_n_n.contr.Idx) :
    (dot_S64x4096_S2048x4096_S64x2048_1_1_0_0_n_n.rhsIdx i q 0).val = (i 1).val := by
  unfold DotDims.rhsIdx
  rw [dif_neg (show ¬(0 : Fin S2048x4096.rank) ∈ dot_S64x4096_S2048x4096_S64x2048_1_1_0_0_n_n.rhsBatch by decide), dif_pos (show (0 : Fin S2048x4096.rank) ∈ dot_S64x4096_S2048x4096_S64x2048_1_1_0_0_n_n.rhsNonContracting by decide)]
  rfl
/-- The right operand's index on its contracting axis 1 is the contraction position. -/
theorem rhs_pay_1 (i : S64x2048.Idx) (q : dot_S64x4096_S2048x4096_S64x2048_1_1_0_0_n_n.contr.Idx) :
    (dot_S64x4096_S2048x4096_S64x2048_1_1_0_0_n_n.rhsIdx i q 1).val = (q ⟨0, by decide⟩).val :=
  dot_S64x4096_S2048x4096_S64x2048_1_1_0_0_n_n.rhsIdx_val_of_single rfl i q

/-- The kernel body's value at (t, n). Its two operands' shape casts are to their own shapes, hence identities; the sum
    and product of arrays read elementwise; each [1, 2048] row broadcast over 64 rows reads, at (t, n), its entry n; and
    the block product into the zero accumulator is the sum over the one contraction coordinate d of x[t, d] · w[n, d],
    both operands being contracted along their axis 1. -/
theorem pay_apply (v0 : Vec Ideal S64x4096 .bf16) (v2 : Vec Ideal S2048x4096 .bf16) (v5 : Vec Ideal S1x2048 .f32)
    (v9 : Vec Ideal S1x2048 .f32) (t : Fin 64) (n : Fin 2048) :
    k0_pay1 (F := Ideal) v0 v2 v5 v9 (ix2 t n)
      = (∑ d : Fin 4096, v0 (ix2 t d) * v2 (ix2 n d)) * v5 (ix2 (0 : Fin 1) n) + v9 (ix2 (0 : Fin 1) n) := by
  unfold k0_pay1
  rw [shapeCast_self v0, shapeCast_self v2, shapeCast_self v5, shapeCast_self v9]
  refine (addf_apply _ _ _).trans ?_
  refine congrArg₂ (· + ·) ?_ (broadcastTo_1b_ab_apply v9 broadcasts_S1x2048_S64x2048 t n)
  refine (mulf_apply _ _ _).trans ?_
  refine congrArg₂ (· * ·) ?_ (broadcastTo_1b_ab_apply v5 broadcasts_S1x2048_S64x2048 t n)
  simp only [matmul]
  refine (Ideal.matmul_constant_zero_apply (φ₁ := .bf16) (φ₂ := .bf16) dot_S64x4096_S2048x4096_S64x2048_1_1_0_0_n_n none v0 v2 (ix2 t n)).trans ?_
  rw [← Equiv.sum_comp (contrEquiv1 dot_S64x4096_S2048x4096_S64x2048_1_1_0_0_n_n 4096 rfl rfl).symm]
  refine Finset.sum_congr rfl fun k _ => ?_
  have hk := contrEquiv1_symm_val dot_S64x4096_S2048x4096_S64x2048_1_1_0_0_n_n 4096 rfl rfl k
  have el : dot_S64x4096_S2048x4096_S64x2048_1_1_0_0_n_n.lhsIdx (ix2 t n) ((contrEquiv1 dot_S64x4096_S2048x4096_S64x2048_1_1_0_0_n_n 4096 rfl rfl).symm k) = ix2 t k := funext fun a => Fin.ext (by
    match a with
    | ⟨0, _⟩ => exact lhs_pay_0 _ _
    | ⟨1, _⟩ => exact (lhs_pay_1 _ _).trans hk)
  have er : dot_S64x4096_S2048x4096_S64x2048_1_1_0_0_n_n.rhsIdx (ix2 t n) ((contrEquiv1 dot_S64x4096_S2048x4096_S64x2048_1_1_0_0_n_n 4096 rfl rfl).symm k) = ix2 n k := funext fun a => Fin.ext (by
    match a with
    | ⟨0, _⟩ => exact rhs_pay_0 _ _
    | ⟨1, _⟩ => exact (rhs_pay_1 _ _).trans hk)
  rw [el, er]

end Cert.Dequant

end
-- ==== Proof.ObligKI.lean ====
/-
  The body obligation of the exact proof data, and the run.

  At each point the body finds the activation block (the whole array), the weight, scale and bias blocks just fetched
  — the array's block on the part inside the array, anything past it — and the result block at anything. It leaves
  the four inputs as found and the result at its arithmetic on them. The obligation asks each clipped window's block
  only on its part inside the array; for the result that part is independent of what lay past the arrays' ends,
  because column n of the product reads row n of the weight block and entry n of the scale and bias blocks, and
  column n lies inside the result array exactly when those lie inside theirs.
-/
import proofs.«409782_j5781025980673_3_alg».proof.Proof.DatKI
import proofs.«409782_j5781025980673_3_alg».proof.Proof.PayIdeal
import Idealize.ShloMosaic.Lib.ValueIdx
import Idealize.ShloMosaic.Lib.Pipeline.Value

set_option maxRecDepth 16384

noncomputable section

open scoped BigOperators

namespace Cert.KernelIdeal.Out

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

open Cert.Dequant

/-! ## What the body finds -/

theorem before0_0 (c : Dev nD) (t : Fin cfg0.N) (d) : (dats m 0 c).before 0 t d = iblk m c 0 t :=
  before0_0_of m (dats m 0 c) (A_eq m c 0) (after0_0 m c) t d

theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]

theorem before0_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]

theorem before0_3 (c : Dev nD) (t : Fin cfg0.N) (d) :
    (dats m 0 c).before 3 t d = win0_3.fill (grid0.coords t) d (iblk m c 3 t) := by
  unfold Dat.before; rw [if_pos (fetch0_3 t)]; unfold Dat.fetched Dat.blockOf iblk; rw [A_eq]

theorem before0_4 (c : Dev nD) (t : Fin cfg0.N) (d) : (dats m 0 c).before 4 t d = d := by
  refine (dats m 0 c).before_out_reset 4 rfl t ?_ d
  by_cases h0 : t.val = 0
  · exact .inl h0
  · exact .inr ⟨h0, flush0_4 _⟩

/-! ## The result block's part inside the array does not see the filling -/

/-- The body's one store is its whole block, and its loads are the whole blocks: the result block is the body's
    arithmetic on the four input blocks. -/
theorem outBlk_eq_pay (x0 : Vec Ideal S64x4096 .bf16) (x1 : Vec Ideal S2048x4096 .bf16) (x2 : Vec Ideal S1x2048 .f32)
    (x3 : Vec Ideal S1x2048 .f32) : outBlk (F := Ideal) x0 x1 x2 x3 = k0_pay1 (F := Ideal) x0 x1 x2 x3 := by
  have hz : (![0, 0] : Fin 2 → Nat) = fun _ => 0 := funext fun a => by fin_cases a <;> rfl
  unfold outBlk
  rw [View.canon_unit_zero hz]
  simp only [View.ld_unit_zero (S := S64x4096) hz, View.ld_unit_zero (S := S2048x4096) hz, View.ld_unit_zero (S := S1x2048) hz]

/-- The clipped windows are cut alike: at each point the weight block keeps as many rows, and the scale and bias
    blocks as many columns, as the result block keeps columns; nothing is cut on the other axes. -/
theorem xsizes (t : Fin cfg0.N) :
    win0_1.xsize (grid0.coords t) 0 = win0_4.xsize (grid0.coords t) 1 ∧ win0_1.xsize (grid0.coords t) 1 = 4096
    ∧ win0_2.xsize (grid0.coords t) 0 = 1 ∧ win0_2.xsize (grid0.coords t) 1 = win0_4.xsize (grid0.coords t) 1
    ∧ win0_3.xsize (grid0.coords t) 0 = 1 ∧ win0_3.xsize (grid0.coords t) 1 = win0_4.xsize (grid0.coords t) 1 :=
  (by decide +kernel : ∀ t : Fin grid0.N,
    win0_1.xsize (grid0.coords t) 0 = win0_4.xsize (grid0.coords t) 1 ∧ win0_1.xsize (grid0.coords t) 1 = 4096
    ∧ win0_2.xsize (grid0.coords t) 0 = 1 ∧ win0_2.xsize (grid0.coords t) 1 = win0_4.xsize (grid0.coords t) 1
    ∧ win0_3.xsize (grid0.coords t) 0 = 1 ∧ win0_3.xsize (grid0.coords t) 1 = win0_4.xsize (grid0.coords t) 1) t

/-- On the part a transfer moves, a filled-out block is the block, whatever it was filled out with. -/
theorem fill_indep {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- Column n of the result block reads row n of the weight block and entry n of the scale and bias blocks; when
    column n lies inside the result array those lie inside theirs, where the filling does not reach. -/
theorem cut_outBlk_indep (c : Dev nD) (t : Fin cfg0.N) (x0 : Vec Ideal S64x4096 .bf16)
    (d1 e1 : Vec Ideal S2048x4096 .bf16) (d2 e2 d3 e3 : Vec Ideal S1x2048 .f32) :
    win0_4.cut (grid0.coords t) (outBlk x0 (win0_1.fill (grid0.coords t) d1 (iblk m c 1 t))
        (win0_2.fill (grid0.coords t) d2 (iblk m c 2 t)) (win0_3.fill (grid0.coords t) d3 (iblk m c 3 t)))
      = win0_4.cut (grid0.coords t) (outBlk x0 (win0_1.fill (grid0.coords t) e1 (iblk m c 1 t))
        (win0_2.fill (grid0.coords t) e2 (iblk m c 2 t)) (win0_3.fill (grid0.coords t) e3 (iblk m c 3 t))) := by
  obtain ⟨h10, h11, h20, h21, h30, h31⟩ := xsizes t
  funext j
  have hj0 : (j 0).val < 64 := lt_of_lt_of_le (j 0).isLt (win0_4.xsize_le (grid0.coords t) 0)
  have hj1 : (j 1).val < 2048 := lt_of_lt_of_le (j 1).isLt (win0_4.xsize_le (grid0.coords t) 1)
  have hj1x : (j 1).val < win0_4.xsize (grid0.coords t) 1 := (j 1).isLt
  have e : win0_4.xinj (grid0.coords t) j = ix2 (⟨(j 0).val, hj0⟩ : Fin 64) (⟨(j 1).val, hj1⟩ : Fin 2048) :=
    funext fun a => by match a with | ⟨0, _⟩ => rfl | ⟨1, _⟩ => rfl
  show outBlk _ _ _ _ (win0_4.xinj (grid0.coords t) j) = outBlk _ _ _ _ (win0_4.xinj (grid0.coords t) j)
  rw [e, outBlk_eq_pay, outBlk_eq_pay, pay_apply, pay_apply]
  have m1 : ∀ d : Fin 4096, win0_1.moved (grid0.coords t) (ix2 (⟨(j 1).val, hj1⟩ : Fin 2048) d) = true := fun d =>
    (win0_1.moved_iff _ _).mpr fun a => by
      match a with
      | ⟨0, _⟩ => show (j 1).val < win0_1.xsize (grid0.coords t) 0; rw [h10]; exact hj1x
      | ⟨1, _⟩ => show d.val < win0_1.xsize (grid0.coords t) 1; rw [h11]; exact d.isLt
  have m2 : win0_2.moved (grid0.coords t) (ix2 (0 : Fin 1) (⟨(j 1).val, hj1⟩ : Fin 2048)) = true :=
    (win0_2.moved_iff _ _).mpr fun a => by
      match a with
      | ⟨0, _⟩ => show 0 < win0_2.xsize (grid0.coords t) 0; rw [h20]; exact Nat.one_pos
      | ⟨1, _⟩ => show (j 1).val < win0_2.xsize (grid0.coords t) 1; rw [h21]; exact hj1x
  have m3 : win0_3.moved (grid0.coords t) (ix2 (0 : Fin 1) (⟨(j 1).val, hj1⟩ : Fin 2048)) = true :=
    (win0_3.moved_iff _ _).mpr fun a => by
      match a with
      | ⟨0, _⟩ => show 0 < win0_3.xsize (grid0.coords t) 0; rw [h30]; exact Nat.one_pos
      | ⟨1, _⟩ => show (j 1).val < win0_3.xsize (grid0.coords t) 1; rw [h31]; exact hj1x
  rw [fill_indep win0_2 (grid0.coords t) d2 e2 _ _ m2, fill_indep win0_3 (grid0.coords t) d3 e3 _ _ m3]
  refine congrArg (fun s => s * _ + _) (Finset.sum_congr rfl fun d _ => ?_)
  rw [fill_indep win0_1 (grid0.coords t) d1 e1 _ _ (m1 d)]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the activation block as stated, each clipped window's block as stated on its part inside the
    array and anything past it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ (∃ d, owns (c : Thread nD τ) (st0_4 t) fullShare ((cfg0.win 4).fill (cfg0.grid.coords t) d ((cfg0.win 4).cut (cfg0.grid.coords t) ((dats m 0 c).after 4 t)))))

/-- The body at any point: it finds the blocks of `before0_W`, so the body's triple applies; what it leaves agrees with
    the proof data on every part inside an array (`cut_fill` for the three inputs, `cut_outBlk_indep` for the result). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3, before0_4 m c t d4]
  iapply (sound_kernel c Set.univ _ _ _ _ _ _ _ _ _ _ _ (iblk m c 0 t) (win0_1.fill (grid0.coords t) d1 (iblk m c 1 t))
    (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  isplitl [H0]; · iexact H0
  have hw : win0_1.cut (grid0.coords t) (wblk m c t) = iblk m c 1 t := win0_1.cut_fill _ _ _
  have hs : win0_2.cut (grid0.coords t) (sblk m c t) = iblk m c 2 t := win0_2.cut_fill _ _ _
  have hb : win0_3.cut (grid0.coords t) (bblk m c t) = iblk m c 3 t := win0_3.cut_fill _ _ _
  have ho : win0_4.cut (grid0.coords t) (oblk m c t)
      = win0_4.cut (grid0.coords t) (outBlk (iblk m c 0 t) (win0_1.fill (grid0.coords t) d1 (iblk m c 1 t))
          (win0_2.fill (grid0.coords t) d2 (iblk m c 2 t)) (win0_3.fill (grid0.coords t) d3 (iblk m c 3 t))) :=
    (cut_outBlk_indep m c t (iblk m c 0 t) d1 _ d2 _ d3 _).symm
  isplitl [H1]
  · iexists d1
    change _ ⊢ owns (c : Thread nD τ) (st0_1 t) fullShare (win0_1.fill (grid0.coords t) d1 (win0_1.cut (grid0.coords t) (wblk m c t)))
    rw [hw]; try iexact H1
  isplitl [H2]
  · iexists d2
    change _ ⊢ owns (c : Thread nD τ) (st0_2 t) fullShare (win0_2.fill (grid0.coords t) d2 (win0_2.cut (grid0.coords t) (sblk m c t)))
    rw [hs]; try iexact H2
  isplitl [H3]
  · iexists d3
    change _ ⊢ owns (c : Thread nD τ) (st0_3 t) fullShare (win0_3.fill (grid0.coords t) d3 (win0_3.cut (grid0.coords t) (bblk m c t)))
    rw [hb]; try iexact H3
  · iexists (outBlk (iblk m c 0 t) (win0_1.fill (grid0.coords t) d1 (iblk m c 1 t))
      (win0_2.fill (grid0.coords t) d2 (iblk m c 2 t)) (win0_3.fill (grid0.coords t) d3 (iblk m c 3 t)))
    change _ ⊢ owns (c : Thread nD τ) (st0_4 t) fullShare (win0_4.fill (grid0.coords t) _ (win0_4.cut (grid0.coords t) (oblk m c t)))
    rw [ho, win0_4.fill_cut]; try iexact H4

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- At the compiled mesh, for any extended reals, from any memory with zero counters: every weakly fair execution of
    @main terminates without a fault; every array of the pipeline ends at what the library computes from the proof
    data, and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

end Cert.KernelIdeal.Out

end
-- ==== Proof.FinalKI.lean ====
import proofs.«409782_j5781025980673_3_alg».proof.Proof.DatKI
import proofs.«409782_j5781025980673_3_alg».proof.Proof.PayIdeal
import Idealize.ShloMosaic.Lib.ValueIdx
import Idealize.ShloMosaic.Lib.Pipeline.Value

set_option maxRecDepth 16384

noncomputable section

open scoped BigOperators

namespace Cert.KernelIdeal.Out

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

open Cert.Dequant

/-- The offsets of a whole-block access are zero on both axes. -/
theorem hz2 : (![0, 0] : Fin 2 → Nat) = fun _ => 0 := funext fun a => by fin_cases a <;> rfl

/-- The body's one store covers the result block, and its loads read the whole input blocks: what it leaves is the
    payload of the four blocks. -/
theorem outBlk_eq (x0 : Vec Ideal S64x4096 .bf16) (x1 : Vec Ideal S2048x4096 .bf16) (x2 x3 : Vec Ideal S1x2048 .f32) :
    outBlk x0 x1 x2 x3 = k0_pay1 (F := Ideal) x0 x1 x2 x3 := by
  unfold outBlk
  rw [View.canon_unit_zero hz2]
  simp only [View.ld_unit_zero (S := S64x4096) hz2, View.ld_unit_zero (S := S2048x4096) hz2, View.ld_unit_zero (S := S1x2048) hz2]

/-- Entry (p, q) of what the body leaves: row p of the first block against row q of the second, times entry q of the
    third, plus entry q of the fourth. -/
theorem outBlk_apply (x0 : Vec Ideal S64x4096 .bf16) (x1 : Vec Ideal S2048x4096 .bf16) (x2 x3 : Vec Ideal S1x2048 .f32)
    (p : Fin 64) (q : Fin 2048) :
    outBlk x0 x1 x2 x3 (ix2 p q)
      = (∑ d : Fin 4096, x0 (ix2 p d) * x1 (ix2 q d)) * x2 (ix2 (0 : Fin 1) q) + x3 (ix2 (0 : Fin 1) q) := by
  rw [outBlk_eq]; exact pay_apply x0 x1 x2 x3 p q

/-- The block index maps over the six points: the activations stay at block (0, 0); the weights move along their rows,
    the scales, the bias and the result along their columns, each at block t at point t. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The sizes moved at point t: 2048 rows (weights) or columns (scales, bias, result) while the block lies inside the
    array, and what is left of the array's 11008 at the last point; the other axis is never cut. -/
theorem cut_facts : ∀ t : Fin cfg0.N,
    win0_1.xsize (grid0.coords t) (0 : Fin 2) = min 2048 (11008 - 2048 * t.val) ∧ win0_1.xsize (grid0.coords t) (1 : Fin 2) = 4096
    ∧ win0_2.xsize (grid0.coords t) (0 : Fin 2) = 1 ∧ win0_2.xsize (grid0.coords t) (1 : Fin 2) = min 2048 (11008 - 2048 * t.val)
    ∧ win0_3.xsize (grid0.coords t) (0 : Fin 2) = 1 ∧ win0_3.xsize (grid0.coords t) (1 : Fin 2) = min 2048 (11008 - 2048 * t.val)
    ∧ win0_4.xsize (grid0.coords t) (0 : Fin 2) = 64 ∧ win0_4.xsize (grid0.coords t) (1 : Fin 2) = min 2048 (11008 - 2048 * t.val) :=
  (by decide +kernel : ∀ t : Fin grid0.N, _)

/-- An index of the result array is in point t's block iff, on each axis, its coordinate lies in the block's range cut
    at the array's end. -/
theorem mem_blk4 (t : Fin cfg0.N) (i : S64x11008.Idx) :
    i ∈ ((cfg0.win 4).blk t).view.set ↔ ∀ a : Fin 2, win0_4.index t a * S64x2048.size a ≤ (i a).val ∧ (i a).val < win0_4.index t a * S64x2048.size a + win0_4.xsize (grid0.coords t) a := by
  show i ∈ ((View.whole main_v8).slice (win0_4.rect t)).set ↔ _
  rw [View.set_slice_whole, Rect.mem_set_unit]
  exact Iff.rfl

/-- Every index of the result array is in some point's block: column q is in the block of point q / 2048, inside its
    cut part because q is below 11008. -/
theorem cover4 (i : S64x11008.Idx) : ∃ t : Fin cfg0.N, (cfg0.win 4).flush t = true ∧ i ∈ ((cfg0.win 4).blk t).view.set := by
  have h0 : (i 0).val < 64 := (i 0).isLt
  have h1 : (i 1).val < 11008 := (i 1).isLt
  have hN : (i 1).val / 2048 < grid0.N := by rw [N_0]; omega
  refine ⟨⟨(i 1).val / 2048, hN⟩, flush0_4 _, ?_⟩
  rw [mem_blk4]
  obtain ⟨-, -, -, -, -, -, -, -, e0, e1⟩ := idx_facts ⟨(i 1).val / 2048, hN⟩
  obtain ⟨-, -, -, -, -, -, x0, x1⟩ := cut_facts ⟨(i 1).val / 2048, hN⟩
  intro a
  match a with
  | ⟨0, _⟩ =>
    show win0_4.index ⟨(i 1).val / 2048, hN⟩ (0 : Fin 2) * 64 ≤ (i 0).val ∧ (i 0).val < win0_4.index ⟨(i 1).val / 2048, hN⟩ (0 : Fin 2) * 64 + win0_4.xsize (grid0.coords ⟨(i 1).val / 2048, hN⟩) (0 : Fin 2)
    rw [e0, x0]; omega
  | ⟨1, _⟩ =>
    show win0_4.index ⟨(i 1).val / 2048, hN⟩ (1 : Fin 2) * 2048 ≤ (i 1).val ∧ (i 1).val < win0_4.index ⟨(i 1).val / 2048, hN⟩ (1 : Fin 2) * 2048 + win0_4.xsize (grid0.coords ⟨(i 1).val / 2048, hN⟩) (1 : Fin 2)
    rw [e1, x1]
    show (i 1).val / 2048 * 2048 ≤ (i 1).val ∧ (i 1).val < (i 1).val / 2048 * 2048 + min 2048 (11008 - 2048 * ((i 1).val / 2048))
    omega

/-- A filled-out block, read at an index the transfer moves, is the fetched block there. -/
theorem fill_apply_of_lt {G : Pipeline.Grid} (w : Window sig G) {α : Type} (i : G.Coords) (d : w.block.Idx → α)
    (g : (w.xblock i).Idx → α) (j : w.block.Idx) (h : ∀ a, (j a).val < w.xsize i a) :
    w.fill i d g j = g (fun a => ⟨(j a).val, h a⟩) := by
  unfold Window.fill; rw [dif_pos ((w.moved_iff i j).mpr h)]

/-- The activation block is the whole activation array at every point. -/
theorem xblk_apply (c : Dev nD) (t : Fin cfg0.N) (p : Fin 64) (d : Fin 4096) :
    iblk m c 0 t (ix2 p d) = vX m c (ix2 p d) := by
  obtain ⟨e0, e1, -⟩ := idx_facts t
  unfold iblk
  show V m c main_v5 (((cfg0.win 0).blk t).view.emb (ix2 p d)) = _
  refine congrArg (V m c main_v5) (funext fun a => Fin.ext ?_)
  match a with
  | ⟨0, _⟩ => show win0_0.index t (0 : Fin 2) * 64 + 1 * p.val = p.val; rw [e0]; omega
  | ⟨1, _⟩ => show win0_0.index t (1 : Fin 2) * 4096 + 1 * d.val = d.val; rw [e1]; omega

/-- Row q of the weight block at point t, where it lies inside the array, is row 2048·t + q of the weight array. -/
theorem wblk_apply (c : Dev nD) (t : Fin cfg0.N) (q : Fin 2048) (d : Fin 4096) (hq : t.val * 2048 + q.val < 11008) :
    wblk m c t (ix2 q d) = vW m c (ix2 (⟨t.val * 2048 + q.val, hq⟩ : Fin 11008) d) := by
  obtain ⟨-, -, e0, e1, -⟩ := idx_facts t
  obtain ⟨x0, x1, -⟩ := cut_facts t
  have h : ∀ a : Fin 2, ((ix2 q d : S2048x4096.Idx) a).val < win0_1.xsize (grid0.coords t) a := fun a => by
    match a with
    | ⟨0, _⟩ => show q.val < win0_1.xsize (grid0.coords t) (0 : Fin 2); rw [x0]; have := q.isLt; omega
    | ⟨1, _⟩ => show d.val < win0_1.xsize (grid0.coords t) (1 : Fin 2); rw [x1]; exact d.isLt
  unfold wblk
  refine (fill_apply_of_lt win0_1 (grid0.coords t) _ _ (ix2 q d) h).trans ?_
  unfold iblk
  have hA : vW m c = V m c (Pipeline.arrRef spec0 1) := rfl
  rw [hA]
  generalize V m c (Pipeline.arrRef spec0 1) = A
  refine (View.read_apply _ _).trans ?_
  refine (cast_eq _ _).trans ?_
  refine congrArg A (funext fun a => Fin.ext ?_)
  match a with
  | ⟨0, _⟩ =>
    refine (Pipeline.Window.rect_emb_val win0_1 t _ _).trans ?_
    show win0_1.index t (0 : Fin 2) * 2048 + q.val = t.val * 2048 + q.val
    rw [e0]
  | ⟨1, _⟩ =>
    refine (Pipeline.Window.rect_emb_val win0_1 t _ _).trans ?_
    show win0_1.index t (1 : Fin 2) * 4096 + d.val = d.val
    rw [e1]; omega

/-- Entry q of the scale block at point t, where it lies inside the array, is entry 2048·t + q of the scale row. -/
theorem sblk_apply (c : Dev nD) (t : Fin cfg0.N) (q : Fin 2048) (hq : t.val * 2048 + q.val < 11008) :
    sblk m c t (ix2 (0 : Fin 1) q) = vS m c (ix2 (0 : Fin 1) (⟨t.val * 2048 + q.val, hq⟩ : Fin 11008)) := by
  obtain ⟨-, -, -, -, e20, e21, e30, e31, -⟩ := idx_facts t
  obtain ⟨-, -, x20, x21, x30, x31, -⟩ := cut_facts t
  have h : ∀ a : Fin 2, ((ix2 (0 : Fin 1) q : S1x2048.Idx) a).val < win0_2.xsize (grid0.coords t) a := fun a => by
    match a with
    | ⟨0, _⟩ => show 0 < win0_2.xsize (grid0.coords t) (0 : Fin 2); omega
    | ⟨1, _⟩ => show q.val < win0_2.xsize (grid0.coords t) (1 : Fin 2); have := q.isLt; omega
  unfold sblk
  refine (fill_apply_of_lt win0_2 (grid0.coords t) _ _ (ix2 (0 : Fin 1) q) h).trans ?_
  unfold iblk
  have hA : vS m c = V m c (Pipeline.arrRef spec0 2) := rfl
  rw [hA]
  generalize V m c (Pipeline.arrRef spec0 2) = A
  refine (View.read_apply _ _).trans ?_
  refine (cast_eq _ _).trans ?_
  refine congrArg A (funext fun a => Fin.ext ?_)
  match a with
  | ⟨0, _⟩ =>
    refine (Pipeline.Window.rect_emb_val win0_2 t _ _).trans ?_
    show win0_2.index t (0 : Fin 2) * 1 + 0 = 0
    omega
  | ⟨1, _⟩ =>
    refine (Pipeline.Window.rect_emb_val win0_2 t _ _).trans ?_
    show win0_2.index t (1 : Fin 2) * 2048 + q.val = t.val * 2048 + q.val
    omega

/-- Entry q of the bias block at point t, where it lies inside the array, is entry 2048·t + q of the bias row. -/
theorem bblk_apply (c : Dev nD) (t : Fin cfg0.N) (q : Fin 2048) (hq : t.val * 2048 + q.val < 11008) :
    bblk m c t (ix2 (0 : Fin 1) q) = vB m c (ix2 (0 : Fin 1) (⟨t.val * 2048 + q.val, hq⟩ : Fin 11008)) := by
  obtain ⟨-, -, -, -, e20, e21, e30, e31, -⟩ := idx_facts t
  obtain ⟨-, -, x20, x21, x30, x31, -⟩ := cut_facts t
  have h : ∀ a : Fin 2, ((ix2 (0 : Fin 1) q : S1x2048.Idx) a).val < win0_3.xsize (grid0.coords t) a := fun a => by
    match a with
    | ⟨0, _⟩ => show 0 < win0_3.xsize (grid0.coords t) (0 : Fin 2); omega
    | ⟨1, _⟩ => show q.val < win0_3.xsize (grid0.coords t) (1 : Fin 2); have := q.isLt; omega
  unfold bblk
  refine (fill_apply_of_lt win0_3 (grid0.coords t) _ _ (ix2 (0 : Fin 1) q) h).trans ?_
  unfold iblk
  have hA : vB m c = V m c (Pipeline.arrRef spec0 3) := rfl
  rw [hA]
  generalize V m c (Pipeline.arrRef spec0 3) = A
  refine (View.read_apply _ _).trans ?_
  refine (cast_eq _ _).trans ?_
  refine congrArg A (funext fun a => Fin.ext ?_)
  match a with
  | ⟨0, _⟩ =>
    refine (Pipeline.Window.rect_emb_val win0_3 t _ _).trans ?_
    show win0_3.index t (0 : Fin 2) * 1 + 0 = 0
    omega
  | ⟨1, _⟩ =>
    refine (Pipeline.Window.rect_emb_val win0_3 t _ _).trans ?_
    show win0_3.index t (1 : Fin 2) * 2048 + q.val = t.val * 2048 + q.val
    omega

/-- What point t writes back is block t of `Gk`: at a moved index (p, q) of the result block, column q is inside the
    array, so the weight row, the scale and the bias the body read there are the arrays' at row and entry 2048·t + q, and
    the activation block is the whole activation array. -/
theorem flushed4_eq (c : Dev nD) (t : Fin cfg0.N) :
    (dats m 0 c).flushed 4 t = ((cfg0.win 4).blk t).view.read (Elt Ideal) (Gk m c) := by
  show (cfg0.win 4).cut (grid0.coords t) ((dats m 0 c).after 4 t) = _
  rw [after0_4]
  obtain ⟨-, -, -, -, -, -, -, -, e0, e1⟩ := idx_facts t
  obtain ⟨-, -, -, -, -, -, x0, x1⟩ := cut_facts t
  funext j
  have hj0' : (j (0 : Fin 2)).val < win0_4.xsize (grid0.coords t) (0 : Fin 2) := (j (0 : Fin 2)).isLt
  have hj1' : (j (1 : Fin 2)).val < win0_4.xsize (grid0.coords t) (1 : Fin 2) := (j (1 : Fin 2)).isLt
  have hj0 : (j (0 : Fin 2)).val < 64 := by omega
  have hj1 : (j (1 : Fin 2)).val < 2048 := by omega
  have hq : t.val * 2048 + (j (1 : Fin 2)).val < 11008 := by omega
  have hx : (cfg0.win 4).xinj (grid0.coords t) j = (ix2 (⟨(j (0 : Fin 2)).val, hj0⟩ : Fin 64) (⟨(j (1 : Fin 2)).val, hj1⟩ : Fin 2048) : S64x2048.Idx) :=
    funext fun a => by
      match a with
      | ⟨0, _⟩ => rfl
      | ⟨1, _⟩ => rfl
  have hemb : ((cfg0.win 4).blk t).view.emb j
      = (ix2 (⟨(j (0 : Fin 2)).val, hj0⟩ : Fin 64) (⟨t.val * 2048 + (j (1 : Fin 2)).val, hq⟩ : Fin 11008) : S64x11008.Idx) :=
    funext fun a => Fin.ext (by
      match a with
      | ⟨0, _⟩ =>
        refine (Pipeline.Window.rect_emb_val win0_4 t _ _).trans ?_
        show win0_4.index t (0 : Fin 2) * 64 + (j (0 : Fin 2)).val = (j (0 : Fin 2)).val
        omega
      | ⟨1, _⟩ =>
        refine (Pipeline.Window.rect_emb_val win0_4 t _ _).trans ?_
        show win0_4.index t (1 : Fin 2) * 2048 + (j (1 : Fin 2)).val = t.val * 2048 + (j (1 : Fin 2)).val
        omega)
  refine (congrArg (oblk m c t) hx).trans ?_
  refine Eq.trans ?_ (View.read_apply _ _).symm
  refine Eq.trans ?_ (cast_eq _ _).symm
  refine Eq.trans ?_ (congrArg (Gk m c) hemb).symm
  unfold oblk
  refine (outBlk_apply _ _ _ _ _ _).trans ?_
  show _ = gk m c (⟨(j (0 : Fin 2)).val, hj0⟩ : Fin 64) (⟨t.val * 2048 + (j (1 : Fin 2)).val, hq⟩ : Fin 11008)
  unfold gk
  exact congrArg₂ (· + ·)
    (congrArg₂ (· * ·)
      (Finset.sum_congr rfl fun d _ => congrArg₂ (· * ·) (xblk_apply m c t _ d) (wblk_apply m c t _ d hq))
      (sblk_apply m c t _ hq))
    (bblk_apply m c t _ hq)

/-- After the six write-backs the result array is `Gk`: each point writes back the part of its result block that lies
    inside the array, that part is the corresponding block of `Gk`, and the six parts cover the array's 11008 columns. -/
theorem final4 (c : Dev nD) : (dats m 0 c).arrAt 4 cfg0.N = Gk m c := by
  exact (dats m 0 c).arrAt_eq_of_cover 4 (Gk m c) (fun t _ => flushed4_eq m c t) cover4

end Cert.KernelIdeal.Out

end
-- ==== Proof.Spec.lean ====
/-
  The arithmetic both programs compute, stated once over the five argument arrays at the exact extended reals.

  The weight matrix is a table look-up: entry (n, d) of the 11008 × 4096 matrix is column d % 8 of the codebook row
  that code (n, d / 8) names. The kernel forms, for token t and output feature n,
      (∑ d, x[t, d] · W[n, d]) · scale[n] + bias[n],
  the reference forms
      (∑ d, x[t, d] · (W[n, d] · scale[n])) + bias[n].
  The two agree wherever x, the codebook and the scales are real numbers: the scale is a factor common to every term
  of a finite sum of reals, and on the reals multiplication distributes over such a sum. (On the extended reals it does
  not: with an infinite term present the two sides may differ, which is why finiteness is assumed.) The bias is added
  last on both sides and may be any extended real.
-/
import Idealize.ShloMosaic.PureOps.Ideal
import Idealize.ShloMosaic.Lib.ValueIdx

noncomputable section

open scoped BigOperators

namespace Cert.Dequant

open Idealize.ShloMosaic Idealize.ShloMosaic.ValueIdx

/-- Every code names a row of the 65536-row codebook. -/
def CodesOk (codes : (⟨3, ![11008, 512, 1]⟩ : Shape).Idx → BitVec 32) : Prop :=
  ∀ i, (codes i).toNat < 65536

/-- Entry (n, d) of the dequantised weight matrix: column d % 8 of the codebook row named by code (n, d / 8). The row
    number is reduced modulo the table's height only to make the definition total; under `CodesOk` it is the code. -/
def weight (codes : (⟨3, ![11008, 512, 1]⟩ : Shape).Idx → BitVec 32) (cb : (⟨4, ![1, 65536, 1, 8]⟩ : Shape).Idx → EReal)
    (n : Fin 11008) (d : Fin 4096) : EReal :=
  cb (ix4 (0 : Fin 1)
    (⟨(codes (ix3 n (⟨d.val / 8, by have := d.isLt; omega⟩ : Fin 512) (0 : Fin 1))).toNat % 65536, Nat.mod_lt _ (by norm_num)⟩ : Fin 65536)
    (0 : Fin 1) (⟨d.val % 8, by omega⟩ : Fin 8))

/-- The kernel's result at (t, n): the row-by-row product, then the scale, then the bias. -/
def outKernel (x : (⟨2, ![64, 4096]⟩ : Shape).Idx → EReal) (codes : (⟨3, ![11008, 512, 1]⟩ : Shape).Idx → BitVec 32)
    (cb : (⟨4, ![1, 65536, 1, 8]⟩ : Shape).Idx → EReal) (sc : (⟨4, ![11008, 1, 1, 1]⟩ : Shape).Idx → EReal)
    (bias : (⟨1, ![11008]⟩ : Shape).Idx → EReal) (t : Fin 64) (n : Fin 11008) : EReal :=
  (∑ d : Fin 4096, x (ix2 t d) * weight codes cb n d) * sc (ix4 n (0 : Fin 1) (0 : Fin 1) (0 : Fin 1)) + bias (ix1 n)

/-- The reference's result at (t, n): the weights scaled first, then the product, then the bias. -/
def outRef (x : (⟨2, ![64, 4096]⟩ : Shape).Idx → EReal) (codes : (⟨3, ![11008, 512, 1]⟩ : Shape).Idx → BitVec 32)
    (cb : (⟨4, ![1, 65536, 1, 8]⟩ : Shape).Idx → EReal) (sc : (⟨4, ![11008, 1, 1, 1]⟩ : Shape).Idx → EReal)
    (bias : (⟨1, ![11008]⟩ : Shape).Idx → EReal) (t : Fin 64) (n : Fin 11008) : EReal :=
  (∑ d : Fin 4096, x (ix2 t d) * (weight codes cb n d * sc (ix4 n (0 : Fin 1) (0 : Fin 1) (0 : Fin 1)))) + bias (ix1 n)

end Cert.Dequant

end
-- ==== Proof.PreFacts.lean ====
/-
  The printed precondition, read back. The predicate is one bit: the conjunction of six "all" reductions, each an
  "and" over every element of a one-bit array. It being 1 says each array is 1 everywhere. Four of the arrays compare
  |v| < +∞ elementwise (v the activations, the codebook, the scales, the bias): an extended real whose absolute value
  is below +∞ is neither infinity, so it is a real number. Two compare each code, as a signed 32-bit number, with 0
  (at least) and with 65536 (below): a signed word that is at least 0 has its top bit clear, so its signed and unsigned
  readings agree, and the second comparison bounds its value by 65536.
-/
import proofs.«409782_j5781025980673_3_alg».proof.Pre_finite_inputs
import proofs.«409782_j5781025980673_3_alg».proof.Proof.Spec
import Idealize.ShloMosaic.Lib.ReduceAll
import Idealize.ShloMosaic.Lib.StableHlo.Predicate

noncomputable section

namespace Cert.Dequant

open Idealize.ShloMosaic Idealize.ShloMosaic.ValueIdx

/-- The shape of a scalar has exactly one index. -/
instance subsingleton_scalar_idx : Subsingleton Cert.Pre_finite_inputs.S_.Idx :=
  ⟨fun _ _ => funext fun d => d.elim0⟩

/-- An elementwise conjunction of two one-bit arrays that is 1 at an index has both operands 1 there. -/
theorem andi_split {s : Shape} (x y : IVec s 1) (i : s.Idx) (h : andi x y i = 1#1) : x i = 1#1 ∧ y i = 1#1 :=
  IntOp.andi_eq_one.1 h

/-- An extended real whose absolute value max x (−x) lies strictly below +∞ is neither +∞ nor −∞, hence a real
    number. The pattern 0x7F800000 (sign 0, exponent all ones, fraction 0) denotes +∞. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    simpa [Ideal.cmp, StableHlo.Predicate.ofBool_eq_one_iff] using h
  rw [max_lt_iff] at hlt
  induction x using EReal.rec with
  | bot => simp at hlt
  | coe r => exact ⟨r, rfl⟩
  | top => simp at hlt

/-- A 32-bit word that is at least 0 as a signed number has its top bit clear: its value is below 2³¹. -/
theorem toNat_lt_of_sge_zero (c : BitVec 32) (h : IntOp.cmpi .sge c 0#32 = 1#1) : c.toNat < 2 ^ 31 := by
  unfold IntOp.cmpi at h
  rw [StableHlo.Predicate.ofBool_eq_one_iff] at h
  have h' : (0#32 : BitVec 32).toInt ≤ c.toInt := by simpa [BitVec.sle] using h
  have hz : (0#32 : BitVec 32).toInt = 0 := by decide
  rw [hz, BitVec.toInt_eq_toNat_cond] at h'
  have hc := c.isLt
  by_contra hn
  rw [if_neg (by omega)] at h'
  omega

/-- A word that is at least 0 and below 65536 as a signed number has a value below 65536. -/
theorem toNat_lt_of_sge_slt (c : BitVec 32) (h0 : IntOp.cmpi .sge c 0#32 = 1#1) (h1 : IntOp.cmpi .slt c 65536#32 = 1#1) :
    c.toNat < 65536 := by
  have hc : c.toNat < 2 ^ 31 := toNat_lt_of_sge_zero c h0
  have := (StableHlo.Predicate.slt_iff_toNat hc (by decide)).1 h1
  simpa using this

theorem pre_decode [Cert.Pre_finite_inputs.Facts]
    (a0 : FVec Ideal Cert.Pre_finite_inputs.S64x4096 .f32) (a1 : IVec Cert.Pre_finite_inputs.S11008x512x1 32)
    (a2 : FVec Ideal Cert.Pre_finite_inputs.S1x65536x1x8 .f32) (a3 : FVec Ideal Cert.Pre_finite_inputs.S11008x1x1x1 .f32)
    (a4 : FVec Ideal Cert.Pre_finite_inputs.S11008 .f32)
    (h : Cert.Pre_finite_inputs.fn (F := Ideal) a0 a1 a2 a3 a4 = fun _ => 1#1) :
    (∀ i, ∃ r : ℝ, a0 i = (r : EReal)) ∧ (∀ i, ∃ r : ℝ, a2 i = (r : EReal)) ∧ (∀ i, ∃ r : ℝ, a3 i = (r : EReal))
      ∧ CodesOk a1 := by
  -- the predicate's one element is 1; it is the conjunction of six reductions by "and" over all axes
  have h0 := congrFun h ValueIdx.ix0
  unfold Cert.Pre_finite_inputs.fn Cert.Pre_finite_inputs.fn_part1 at h0
  dsimp only at h0
  obtain ⟨h0, hlt⟩ := andi_split _ _ _ h0
  obtain ⟨h0, hge⟩ := andi_split _ _ _ h0
  obtain ⟨h0, _⟩ := andi_split _ _ _ h0
  obtain ⟨h0, hc⟩ := andi_split _ _ _ h0
  obtain ⟨ha, hb⟩ := andi_split _ _ _ h0
  refine ⟨fun i => ?_, fun i => ?_, fun i => ?_, fun i => ?_⟩
  · exact real_of_abs_lt_inf (a0 i) (Host.reduce_andi_all _ _ _ _ _ ha i)
  · exact real_of_abs_lt_inf (a2 i) (Host.reduce_andi_all _ _ _ _ _ hb i)
  · exact real_of_abs_lt_inf (a3 i) (Host.reduce_andi_all _ _ _ _ _ hc i)
  · exact toNat_lt_of_sge_slt (a1 i) (Host.reduce_andi_all _ _ _ _ _ hge i) (Host.reduce_andi_all _ _ _ _ _ hlt i)

end Cert.Dequant

end
-- ==== Proof.KHost.lean ====
import proofs.«409782_j5781025980673_3_alg».proof.Proof.Gen.KernelIdeal.Frame
import proofs.«409782_j5781025980673_3_alg».proof.Proof.Spec
import Idealize.ShloMosaic.Lib.StableHlo.Run
import Idealize.ShloMosaic.Lib.Pipeline.Value
import Idealize.ShloMosaic.Lib.ReduceAll
import Idealize.ShloMosaic.Lib.StableHlo.Predicate

noncomputable section

namespace Cert.Dequant

open Idealize.ShloMosaic Idealize.ShloMosaic.ValueIdx Idealize.SL.Sem Cert.KernelIdeal Cert.KernelIdeal.Gen

variable (m : (ℓ : Loc nD τ sig) → Buf (Elt Ideal) ℓ)

namespace KHost

/-! ## The look-up as a function of the codes and the codebook

The operations that build the dequantised weights, composed as one function of the two arrays they read: the codes
[11008, 512, 1] and the codebook [1, 65536, 1, 8]. Each name below is one stage, first as a function of the stage
before it, then composed from the two arrays. -/

section Lookup

/-- A negative index counted from the end of the table: the index plus 65536 where it is below zero, else the index. -/
abbrev wrappedOf (c2 : IVec S11008x512 32) : IVec S11008x512 32 :=
  select (cmpi .slt c2 (broadcastInDim S11008x512 ![] bcast_S_S11008x512 (constantI S_ 32 0#32)))
    (addi c2 (broadcastInDim S11008x512 ![] bcast_S_S11008x512 (constantI S_ 32 65536#32)))
    c2

/-- The start indices: the wrapped indices with a trailing unit axis (the index vector's). -/
abbrev startsOf (c2 : IVec S11008x512 32) : IVec S11008x512x1 32 :=
  broadcastInDim S11008x512x1 ![0, 1] bcast_S11008x512_S11008x512x1_0_1 (wrappedOf c2)

/-- Whether a start index names a row: at least 0 and at most 65535, as signed numbers. -/
abbrev inRangeOf (st : IVec S11008x512x1 32) : IVec S11008x512x1 1 :=
  andi (cmpi .sge st (broadcastInDim S11008x512x1 ![] bcast_S_S11008x512x1 (constantI S_ 32 0#32)))
    (cmpi .sle st (broadcastInDim S11008x512x1 ![0, 1, 2] bcast_S1x1x1_S11008x512x1_0_1_2
      (broadcastInDim S1x1x1 ![2] bcast_S1_S1x1x1_2 (constantI S1 32 65535#32))))

/-- An array of bits and-reduced over the index vector's axis (of extent 1), from one. -/
abbrev reducedOf (ir : IVec S11008x512x1 1) : IVec S11008x512 1 :=
  Host.reduce IntOp.andi ir (constantI S_ 1 1#1) reducesTo_S11008x512x1_S11008x512_d2 h_S_

/-- The mask: whether the start index names a row, reduced. -/
abbrev maskOf (st : IVec S11008x512x1 32) : IVec S11008x512 1 := reducedOf (inRangeOf st)

/-- The rows of the table the start indices name (clamped into the table) where the mask is one, a NaN elsewhere. -/
abbrev selectedOf (mk : IVec S11008x512 1) (tb : FVec Ideal S65536x8 .f32) (st : IVec S11008x512x1 32) :
    FVec Ideal S11008x512x8 .f32 :=
  select (broadcastInDim S11008x512x8 ![0, 1] bcast_S11008x512_S11008x512x8_0_1 mk)
    (Host.gather gather_S65536x8_S11008x512x1_S11008x512x8_2_0_n_n_0_2_18 tb st)
    (broadcastInDim S11008x512x8 ![] bcast_S_S11008x512x8 (constant (F := Ideal) S_ .f32 0x7FC00000#32))

/-- The same under the start indices' own mask. -/
abbrev takenOf (tb : FVec Ideal S65536x8 .f32) (st : IVec S11008x512x1 32) : FVec Ideal S11008x512x8 .f32 :=
  selectedOf (maskOf st) tb st

/-- The taken rows laid out as 4096 columns, narrowed (the identity on extended reals). -/
abbrev dequantOf (tk : FVec Ideal S11008x512x8 .f32) : FVec Ideal S11008x4096 .bf16 :=
  truncf .bf16 (shapeCast S11008x4096 tk shapeCasts_S11008x512x8_S11008x4096) bitsLt_bf16_f32

variable (codes : S11008x512x1.Idx → BitVec 32) (cb : S1x65536x1x8.Idx → EReal)

/-- The codes without their trailing unit axis. -/
abbrev codes2 : IVec S11008x512 32 := shapeCast S11008x512 codes shapeCasts_S11008x512x1_S11008x512

/-- The codebook as a table of 65536 rows of 8. -/
abbrev table : FVec Ideal S65536x8 .f32 := shapeCast S65536x8 cb shapeCasts_S1x65536x1x8_S65536x8

abbrev wrapped : IVec S11008x512 32 := wrappedOf (codes2 codes)
abbrev starts : IVec S11008x512x1 32 := startsOf (codes2 codes)
abbrev inRange : IVec S11008x512x1 1 := inRangeOf (starts codes)
abbrev mask : IVec S11008x512 1 := maskOf (starts codes)
/-- The rows gathered: entry (n, g, j) is column j of the row the start index (n, g) names, clamped into the table. -/
abbrev gathered : FVec Ideal S11008x512x8 .f32 :=
  Host.gather gather_S65536x8_S11008x512x1_S11008x512x8_2_0_n_n_0_2_18 (table cb) (starts codes)
abbrev taken : FVec Ideal S11008x512x8 .f32 := takenOf (table cb) (starts codes)
/-- The weights. -/
abbrev dequant : FVec Ideal S11008x4096 .bf16 := dequantOf (taken codes cb)

end Lookup

section LookupAt

open Idealize.ShloMosaic.StableHlo.Predicate

variable (codes : S11008x512x1.Idx → BitVec 32) (cb : S1x65536x1x8.Idx → EReal)

/-- Dropping the trailing unit axis keeps the entry. -/
theorem codes2_apply (n : Fin 11008) (g : Fin 512) : codes2 codes (ix2 n g) = codes (ix3 n g (0 : Fin 1)) := by
  refine shapeCast_apply (s := S11008x512x1) (t := S11008x512) _ _ _ _ ?_
  rw [Shape.rowMajor_val_three, Shape.rowMajor_val_two]
  show (n.val * 512 + g.val) * 1 + 0 = n.val * 512 + g.val
  omega

/-- A code below 65536 is not negative, so wrapping leaves it. -/
theorem wrapped_apply (hc : CodesOk codes) (n : Fin 11008) (g : Fin 512) :
    wrapped codes (ix2 n g) = codes (ix3 n g (0 : Fin 1)) := by
  show Scalar.select (IntOp.cmpi .slt (codes2 codes (ix2 n g)) 0#32)
      (IntOp.addi (codes2 codes (ix2 n g)) 65536#32) (codes2 codes (ix2 n g)) = _
  rw [codes2_apply]
  have h := hc (ix3 n g (0 : Fin 1))
  have h0 : IntOp.cmpi .slt (codes (ix3 n g (0 : Fin 1))) 0#32 = 0#1 := by
    refine eq_zero_of_ne_one fun h1 => ?_
    have := (slt_iff_toNat (by omega) (by decide)).mp h1
    simp at this
  rw [h0, select_zero]

/-- The start index at (n, g) is the code. -/
theorem starts_apply (hc : CodesOk codes) (n : Fin 11008) (g : Fin 512) (z : Fin 1) :
    starts codes (ix3 n g z) = codes (ix3 n g (0 : Fin 1)) := by
  refine (broadcastInDim_apply (s := S11008x512) (t := S11008x512x1) _ _ (wrapped codes) (ix3 n g z) (ix2 n g) ?_).trans
    (wrapped_apply codes hc n g)
  intro a
  match a with
  | ⟨0, _⟩ => rfl
  | ⟨1, _⟩ => rfl

/-- Every start index names a row. -/
theorem inRange_apply (hc : CodesOk codes) (n : Fin 11008) (g : Fin 512) (z : Fin 1) :
    inRange codes (ix3 n g z) = 1#1 := by
  show IntOp.andi (IntOp.cmpi .sge (starts codes (ix3 n g z)) 0#32)
      (IntOp.cmpi .sle (starts codes (ix3 n g z)) 65535#32) = 1#1
  rw [starts_apply codes hc]
  have h := hc (ix3 n g (0 : Fin 1))
  refine IntOp.andi_eq_one.mpr ⟨?_, ?_⟩
  · refine (sge_iff_toNat (by omega) (by decide)).mpr ?_
    show 0 ≤ _
    omega
  · refine (sle_iff_toNat (by omega) (by decide)).mpr ?_
    show _ ≤ 65535
    omega

theorem inRange_all (hc : CodesOk codes) (i : S11008x512x1.Idx) : inRange codes i = 1#1 := by
  obtain ⟨n, g, z, rfl⟩ : ∃ (n : Fin 11008) (g : Fin 512) (z : Fin 1), i = ix3 n g z := ⟨i 0, i 1, i 2, eq_ix3 i⟩
  exact inRange_apply codes hc n g z

/-- A left fold by and over ones, from one, is one. -/
theorem foldl_andi_ones {ι : Type} (f : ι → BitVec 1) :
    ∀ l : List ι, (∀ i ∈ l, f i = 1#1) → l.foldl (fun r i => IntOp.andi r (f i)) 1#1 = 1#1
  | [], _ => rfl
  | a :: l, h => by
    rw [List.foldl_cons, h a List.mem_cons_self]
    exact foldl_andi_ones f l fun i hi => h i (List.mem_cons_of_mem _ hi)

/-- So the reduced mask is one everywhere. -/
theorem mask_apply (hc : CodesOk codes) (j : S11008x512.Idx) : mask codes j = 1#1 := by
  show Host.reduce IntOp.andi (inRange codes) (constantI S_ 1 1#1) reducesTo_S11008x512x1_S11008x512_d2 h_S_ j = 1#1
  rw [Host.reduce_eq_foldl]
  exact foldl_andi_ones (inRange codes) _ fun i _ => inRange_all codes hc i

/-- The gather reads the table's row the code names: the start index is the code, not negative and at most 65535,
    so clamping leaves it; the table's first axis is collapsed, its second is the slice's. -/
theorem gathered_apply (hc : CodesOk codes) (n : Fin 11008) (g : Fin 512) (j : Fin 8) :
    gathered codes cb (ix3 n g j)
      = table cb (ix2 (⟨(codes (ix3 n g (0 : Fin 1))).toNat, hc _⟩ : Fin 65536) j) := by
  show table cb (GatherDims.operandIdx gather_S65536x8_S11008x512x1_S11008x512x8_2_0_n_n_0_2_18 (ix3 n g j) (starts codes)) = _
  congr 1
  funext a
  refine Fin.ext ?_
  match a with
  | ⟨0, _⟩ =>
    show GatherDims.start gather_S65536x8_S11008x512x1_S11008x512x8_2_0_n_n_0_2_18 (ix3 n g j) (starts codes) 0
        + GatherDims.batchCoord gather_S65536x8_S11008x512x1_S11008x512x8_2_0_n_n_0_2_18 (ix3 n g j) 0
        + GatherDims.offCoord gather_S65536x8_S11008x512x1_S11008x512x8_2_0_n_n_0_2_18 (ix3 n g j) 0
      = (codes (ix3 n g (0 : Fin 1))).toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S65536x8_S11008x512x1_S11008x512x8_2_0_n_n_0_2_18).startIndexMap from List.mem_singleton.mpr rfl)]
    have hsi : (gather_S65536x8_S11008x512x1_S11008x512x8_2_0_n_n_0_2_18).siIdx (ix3 n g j)
        ⟨List.idxOf (0 : Fin 2) (gather_S65536x8_S11008x512x1_S11008x512x8_2_0_n_n_0_2_18).startIndexMap,
          List.idxOf_lt_length_iff.2 (List.mem_singleton.mpr rfl)⟩ = ix3 n g (0 : Fin 1) := by
      funext b; refine Fin.ext ?_
      match b with
      | ⟨0, _⟩ => rfl
      | ⟨1, _⟩ => rfl
      | ⟨2, _⟩ => rfl
    rw [hsi, starts_apply codes hc]
    have h := hc (ix3 n g (0 : Fin 1))
    have ht : (codes (ix3 n g (0 : Fin 1))).toInt = ((codes (ix3 n g (0 : Fin 1))).toNat : ℤ) :=
      toInt_eq_toNat_of_lt (by omega)
    rw [ht]
    show min ((codes (ix3 n g (0 : Fin 1))).toNat : ℤ).toNat (65536 - 1) = (codes (ix3 n g (0 : Fin 1))).toNat
    omega
  | ⟨1, _⟩ =>
    show GatherDims.start gather_S65536x8_S11008x512x1_S11008x512x8_2_0_n_n_0_2_18 (ix3 n g j) (starts codes) 1
        + GatherDims.batchCoord gather_S65536x8_S11008x512x1_S11008x512x8_2_0_n_n_0_2_18 (ix3 n g j) 1
        + GatherDims.offCoord gather_S65536x8_S11008x512x1_S11008x512x8_2_0_n_n_0_2_18 (ix3 n g j) 1
      = j.val
    have hs : GatherDims.start gather_S65536x8_S11008x512x1_S11008x512x8_2_0_n_n_0_2_18 (ix3 n g j) (starts codes) 1 = 0 := by
      unfold GatherDims.start
      exact dif_neg (by decide)
    have ho : GatherDims.offCoord gather_S65536x8_S11008x512x1_S11008x512x8_2_0_n_n_0_2_18 (ix3 n g j) 1 = j.val := by
      unfold GatherDims.offCoord
      rw [dif_pos (by decide)]
      rfl
    rw [hs, GatherDims.batchCoord_eq_zero _ _ _ List.not_mem_nil, ho]
    omega

/-- A broadcast of an array that holds one value everywhere holds it everywhere. -/
theorem broadcastInDim_of_forall {s t : Shape} {α : Type} (dims : Fin s.rank → Fin t.rank) (h : s.BroadcastsInDim t dims)
    (x : s.Idx → α) (v : α) (hx : ∀ k, x k = v) (j : t.Idx) : broadcastInDim t dims h x j = v := hx _

/-- With the mask one, the select takes the gathered value. -/
theorem taken_apply (hc : CodesOk codes) (n : Fin 11008) (g : Fin 512) (j : Fin 8) :
    taken codes cb (ix3 n g j)
      = table cb (ix2 (⟨(codes (ix3 n g (0 : Fin 1))).toNat, hc _⟩ : Fin 65536) j) := by
  unfold taken takenOf selectedOf
  rw [select_apply, broadcastInDim_of_forall _ _ _ 1#1 (mask_apply codes hc), select_one]
  exact gathered_apply codes cb hc n g j

/-- Column d of the 4096 is entry (d / 8, d % 8) of the 512 groups of 8; row r, column j of the table is entry
    (0, r, 0, j) of the codebook; and a code below 65536 is its own remainder modulo 65536. -/
theorem dequant_apply (hc : CodesOk codes) (n : Fin 11008) (d : Fin 4096) :
    dequant codes cb (ix2 n d) = weight codes cb n d := by
  unfold dequant dequantOf
  rw [truncf_apply]
  refine (shapeCast_apply (s := S11008x512x8) (t := S11008x4096) (taken codes cb) _ (ix2 n d)
    (ix3 n (⟨d.val / 8, by have := d.isLt; omega⟩ : Fin 512) (⟨d.val % 8, by omega⟩ : Fin 8)) ?_).trans ?_
  · rw [Shape.rowMajor_val_three, Shape.rowMajor_val_two]
    show (n.val * 512 + d.val / 8) * 8 + d.val % 8 = n.val * 4096 + d.val
    omega
  · rw [taken_apply codes cb hc]
    unfold weight
    have h := hc (ix3 n (⟨d.val / 8, by have := d.isLt; omega⟩ : Fin 512) (0 : Fin 1))
    refine shapeCast_apply (s := S1x65536x1x8) (t := S65536x8) cb _ _ _ ?_
    rw [Shape.rowMajor_val_four, Shape.rowMajor_val_two]
    show ((0 * 65536 + (codes (ix3 n (⟨d.val / 8, by have := d.isLt; omega⟩ : Fin 512) (0 : Fin 1))).toNat % 65536) * 1 + 0) * 8 + d.val % 8
      = (codes (ix3 n (⟨d.val / 8, by have := d.isLt; omega⟩ : Fin 512) (0 : Fin 1))).toNat * 8 + d.val % 8
    omega

end LookupAt

/-! ## What the host operations leave, stretch by stretch

Each stretch of operations is read with the contents before it left general, so that a value several later operations
read is named once. The 23 operations of the look-up are cut into four stretches: the start indices, the range test,
the reduction, and the gather with the select. -/

section Stages

open Idealize.ShloMosaic.StableHlo

/-- The look-up's operations 1 to 8. -/
abbrev lookupOps1 : List (HloOp τ sig (Elt Ideal)) := List.take 8 (hostOps0_1 (F := Ideal))
/-- The look-up's operations 9 to 16. -/
abbrev lookupOps2 : List (HloOp τ sig (Elt Ideal)) := List.take 8 (List.drop 8 (hostOps0_1 (F := Ideal)))
/-- The look-up's operations 17 and 18. -/
abbrev lookupOps3 : List (HloOp τ sig (Elt Ideal)) := List.take 2 (List.drop 16 (hostOps0_1 (F := Ideal)))
/-- The look-up's operations 19 to 23. -/
abbrev lookupOps4 : List (HloOp τ sig (Elt Ideal)) := List.drop 18 (hostOps0_1 (F := Ideal))

theorem lookupOps_eq : (hostOps0_1 (F := Ideal)) = lookupOps1 ++ (lookupOps2 ++ (lookupOps3 ++ lookupOps4)) := by
  simp only [lookupOps1, lookupOps2, lookupOps3, lookupOps4, Gen.hostOps0_1, List.take_succ_cons, List.take_zero,
    List.drop_succ_cons, List.drop_zero, List.cons_append, List.nil_append]

variable (W : Valuation τ sig (Elt Ideal))

/-- The two reshapes before the look-up. -/
theorem stageA_table :
    (after (hostOps0 (F := Ideal)) W (Proc.devRef .tc main_v0) : S65536x8.Idx → EReal)
      = table (W (Proc.devRef .tc main_arg2)) := by
  simp only [Gen.hostOps0]
  after_results
  rfl

theorem stageA_codes :
    (after (hostOps0 (F := Ideal)) W (Proc.devRef .tc main_v1) : S11008x512.Idx → BitVec 32)
      = codes2 (W (Proc.devRef .tc main_arg1)) := by
  simp only [Gen.hostOps0]
  after_results
  rfl

set_option maxRecDepth 16384 in
/-- The start indices. -/
theorem stage1_starts :
    (after lookupOps1 W (Proc.devRef .tc main_call0_v5) : S11008x512x1.Idx → BitVec 32)
      = startsOf (W (Proc.devRef .tc main_v1)) := by
  simp only [lookupOps1, Gen.hostOps0_1, List.take_succ_cons, List.take_zero]
  after_results
  rfl

set_option maxRecDepth 16384 in
theorem stage1_table :
    (after lookupOps1 W (Proc.devRef .tc main_v0) : S65536x8.Idx → EReal) = W (Proc.devRef .tc main_v0) := by
  simp only [lookupOps1, Gen.hostOps0_1, List.take_succ_cons, List.take_zero]
  after_results

set_option maxRecDepth 16384 in
/-- The range test. -/
theorem stage2_inRange :
    (after lookupOps2 W (Proc.devRef .tc main_call0_v11) : S11008x512x1.Idx → BitVec 1)
      = inRangeOf (W (Proc.devRef .tc main_call0_v5)) := by
  simp only [lookupOps2, Gen.hostOps0_1, List.take_succ_cons, List.take_zero, List.drop_succ_cons, List.drop_zero]
  after_results
  rfl

set_option maxRecDepth 16384 in
theorem stage2_starts :
    (after lookupOps2 W (Proc.devRef .tc main_call0_v5) : S11008x512x1.Idx → BitVec 32)
      = W (Proc.devRef .tc main_call0_v5) := by
  simp only [lookupOps2, Gen.hostOps0_1, List.take_succ_cons, List.take_zero, List.drop_succ_cons, List.drop_zero]
  after_results

set_option maxRecDepth 16384 in
theorem stage2_table :
    (after lookupOps2 W (Proc.devRef .tc main_v0) : S65536x8.Idx → EReal) = W (Proc.devRef .tc main_v0) := by
  simp only [lookupOps2, Gen.hostOps0_1, List.take_succ_cons, List.take_zero, List.drop_succ_cons, List.drop_zero]
  after_results

set_option maxRecDepth 16384 in
/-- The reduction. -/
theorem stage3_mask :
    (after lookupOps3 W (Proc.devRef .tc main_call0_v12) : S11008x512.Idx → BitVec 1)
      = reducedOf (W (Proc.devRef .tc main_call0_v11)) := by
  simp only [lookupOps3, Gen.hostOps0_1, List.take_succ_cons, List.take_zero, List.drop_succ_cons, List.drop_zero]
  after_results
  simp only [TRef.ofBuf, TRef.toBuf, cast_eq]

set_option maxRecDepth 16384 in
theorem stage3_starts :
    (after lookupOps3 W (Proc.devRef .tc main_call0_v5) : S11008x512x1.Idx → BitVec 32)
      = W (Proc.devRef .tc main_call0_v5) := by
  simp only [lookupOps3, Gen.hostOps0_1, List.take_succ_cons, List.take_zero, List.drop_succ_cons, List.drop_zero]
  after_results

set_option maxRecDepth 16384 in
theorem stage3_table :
    (after lookupOps3 W (Proc.devRef .tc main_v0) : S65536x8.Idx → EReal) = W (Proc.devRef .tc main_v0) := by
  simp only [lookupOps3, Gen.hostOps0_1, List.take_succ_cons, List.take_zero, List.drop_succ_cons, List.drop_zero]
  after_results

set_option maxRecDepth 16384 in
/-- The gather and the select. -/
theorem stage4 :
    (after lookupOps4 W (Proc.devRef .tc main_v2) : S11008x512x8.Idx → EReal)
      = selectedOf (W (Proc.devRef .tc main_call0_v12)) (W (Proc.devRef .tc main_v0)) (W (Proc.devRef .tc main_call0_v5)) := by
  simp only [lookupOps4, Gen.hostOps0_1, List.drop_succ_cons, List.drop_zero]
  after_results
  rfl

/-- The reshape and the narrowing after the look-up. -/
theorem stageC :
    (after (hostOps0_2 (F := Ideal)) W (Proc.devRef .tc main_v4) : S11008x4096.Idx → EReal)
      = dequantOf (W (Proc.devRef .tc main_v2)) := by
  simp only [Gen.hostOps0_2]
  after_results
  rfl

end Stages

end KHost

open KHost

/-- The weights' array as the region finds it is the look-up of the launched codes in the launched codebook. -/
theorem V_weight_eq (c : Dev nD) :
    (V (F := Ideal) m c main_v4 : S11008x4096.Idx → EReal)
      = dequant (m ((c.tc : Thread nD τ).loc main_arg1)) (m ((c.tc : Thread nD τ).loc main_arg2)) := by
  dsimp only [Gen.V]
  simp only [List.flatten_cons, List.flatten_nil, List.append_nil]
  rw [StableHlo.after_append, StableHlo.after_append, stageC, lookupOps_eq,
    StableHlo.after_append, StableHlo.after_append, StableHlo.after_append,
    stage4, stage3_mask, stage3_table, stage3_starts, stage2_inRange, stage2_table, stage2_starts,
    stage1_starts, stage1_table, stageA_table, stageA_codes]

theorem V_weight (c : Dev nD) (hc : CodesOk (m ((c.tc : Thread nD τ).loc main_arg1))) (n : Fin 11008) (d : Fin 4096) :
    (V (F := Ideal) m c main_v4 : S11008x4096.Idx → EReal) (ix2 n d)
      = weight (m ((c.tc : Thread nD τ).loc main_arg1)) (m ((c.tc : Thread nD τ).loc main_arg2)) n d := by
  rw [V_weight_eq m c]
  exact dequant_apply _ _ hc n d

theorem V_x (c : Dev nD) (t : Fin 64) (d : Fin 4096) :
    (V (F := Ideal) m c main_v5 : S64x4096.Idx → EReal) (ix2 t d) = (m ((c.tc : Thread nD τ).loc main_arg0) : S64x4096.Idx → EReal) (ix2 t d) := by
  have e : (V (F := Ideal) m c main_v5 : S64x4096.Idx → EReal)
      = (truncf (F := Ideal) .bf16 (m ((c.tc : Thread nD τ).loc main_arg0) : S64x4096.Idx → EReal) bitsLt_bf16_f32 : S64x4096.Idx → EReal) := by
    dsimp only [Gen.V]
    simp only [Gen.hostOps0, Gen.hostOps0_1, Gen.hostOps0_2, List.flatten_cons, List.flatten_nil, List.append_nil, List.cons_append, List.nil_append]
    after_results
  rw [e]
  rfl

theorem V_scale (c : Dev nD) (n : Fin 11008) :
    (V (F := Ideal) m c main_v6 : S1x11008.Idx → EReal) (ix2 (0 : Fin 1) n)
      = (m ((c.tc : Thread nD τ).loc main_arg3) : S11008x1x1x1.Idx → EReal) (ix4 n (0 : Fin 1) (0 : Fin 1) (0 : Fin 1)) := by
  have e : (V (F := Ideal) m c main_v6 : S1x11008.Idx → EReal)
      = shapeCast S1x11008 (m ((c.tc : Thread nD τ).loc main_arg3) : S11008x1x1x1.Idx → EReal) shapeCasts_S11008x1x1x1_S1x11008 := by
    dsimp only [Gen.V]
    simp only [Gen.hostOps0, Gen.hostOps0_1, Gen.hostOps0_2, List.flatten_cons, List.flatten_nil, List.append_nil, List.cons_append, List.nil_append]
    after_results
    rfl
  rw [e]
  refine shapeCast_apply (s := S11008x1x1x1) (t := S1x11008) _ _ _ _ ?_
  rw [Shape.rowMajor_val_four, Shape.rowMajor_val_two]
  show ((n.val * 1 + 0) * 1 + 0) * 1 + 0 = 0 * 11008 + n.val
  omega

theorem V_bias (c : Dev nD) (n : Fin 11008) :
    (V (F := Ideal) m c main_v7 : S1x11008.Idx → EReal) (ix2 (0 : Fin 1) n)
      = (m ((c.tc : Thread nD τ).loc main_arg4) : S11008.Idx → EReal) (ix1 n) := by
  have e : (V (F := Ideal) m c main_v7 : S1x11008.Idx → EReal)
      = shapeCast S1x11008 (m ((c.tc : Thread nD τ).loc main_arg4) : S11008.Idx → EReal) shapeCasts_S11008_S1x11008 := by
    dsimp only [Gen.V]
    simp only [Gen.hostOps0, Gen.hostOps0_1, Gen.hostOps0_2, List.flatten_cons, List.flatten_nil, List.append_nil, List.cons_append, List.nil_append]
    after_results
    rfl
  rw [e]
  refine shapeCast_apply (s := S11008) (t := S1x11008) _ _ _ _ ?_
  rw [Shape.rowMajor_val_one, Shape.rowMajor_val_two]
  show n.val = 0 * 11008 + n.val
  omega

end Cert.Dequant

end
-- ==== Proof.RefValue.lean ====
import proofs.«409782_j5781025980673_3_alg».proof.Proof.Gen.ReferenceIdeal.Read
import proofs.«409782_j5781025980673_3_alg».proof.Proof.Spec
import Idealize.ShloMosaic.Lib.StableHlo.Predicate

noncomputable section

namespace Cert.Dequant

open Idealize.ShloMosaic Idealize.ShloMosaic.ValueIdx Cert.ReferenceIdeal

open Cert.ReferenceIdeal.Gen Cert.ReferenceIdeal.Read Idealize.ShloMosaic.StableHlo

/-- The look-up's dimension numbers: a table [65536, 1, 8] whose axis 0 is indexed and collapsed, read whole along
    its other two axes. -/
abbrev refGather := gather_S65536x1x8_S11008x512x1_S11008x512x1x8_23_0_n_n_0_2_118

/-- THE LOOK-UP READ AT (n, g, 0, j): the table's row start(n, g, 0) -- the start index read signed and clamped into
    [0, 65535] -- at column j. Axis 0 of the table takes the clamped start index and no offset (it is collapsed); axes 1
    and 2 take no start index and the result's last two coordinates as offsets. -/
theorem ref_gather_apply {α : Type} {w : Nat} (x : S65536x1x8.Idx → α) (idx : IVec S11008x512x1 w)
    (n : Fin 11008) (g : Fin 512) (z : Fin 1) (j : Fin 8) :
    Host.gather refGather x idx (ix4 n g z j)
      = x (ix3 (⟨min (idx (ix3 n g (0 : Fin 1))).toInt.toNat 65535, by omega⟩ : Fin 65536) (0 : Fin 1) j) := by
  unfold Host.gather
  congr 1
  funext a
  refine Fin.ext ?_
  match a with
  | ⟨0, _⟩ =>
    show refGather.start (ix4 n g z j) idx 0 + refGather.batchCoord (ix4 n g z j) 0 + refGather.offCoord (ix4 n g z j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ refGather.startIndexMap from List.mem_singleton.mpr rfl)]
    have hsi : refGather.siIdx (ix4 n g z j) ⟨List.idxOf (0 : Fin 3) refGather.startIndexMap,
        List.idxOf_lt_length_iff.2 (List.mem_singleton.mpr rfl)⟩ = ix3 n g (0 : Fin 1) := by
      funext b; refine Fin.ext ?_
      match b with
      | ⟨0, _⟩ => rfl
      | ⟨1, _⟩ => rfl
      | ⟨2, _⟩ => rfl
    rw [hsi]
    rfl
  | ⟨1, _⟩ =>
    show refGather.start (ix4 n g z j) idx 1 + refGather.batchCoord (ix4 n g z j) 1 + refGather.offCoord (ix4 n g z j) 1 = 0
    have h1 : refGather.start (ix4 n g z j) idx 1 = 0 := by
      unfold GatherDims.start; rw [dif_neg (by decide)]
    have h2 : refGather.offCoord (ix4 n g z j) 1 = z.val := by
      unfold GatherDims.offCoord; rw [dif_pos (by decide)]; rfl
    rw [h1, GatherDims.batchCoord_eq_zero _ _ _ List.not_mem_nil, h2]
    have := z.isLt; omega
  | ⟨2, _⟩ =>
    show refGather.start (ix4 n g z j) idx 2 + refGather.batchCoord (ix4 n g z j) 2 + refGather.offCoord (ix4 n g z j) 2 = j.val
    have h1 : refGather.start (ix4 n g z j) idx 2 = 0 := by
      unfold GatherDims.start; rw [dif_neg (by decide)]
    have h2 : refGather.offCoord (ix4 n g z j) 2 = j.val := by
      unfold GatherDims.offCoord; rw [dif_pos (by decide)]; rfl
    rw [h1, GatherDims.batchCoord_eq_zero _ _ _ List.not_mem_nil, h2]
    omega

/-- The start index the reference hands the look-up is the code itself: the reference adds 65536 to a negative code
    and leaves any other alone, and a code below 65536 is not negative. -/
theorem ref_start_index (x1 : IVec S11008x512x1 32) (hc : CodesOk x1) (n : Fin 11008) (g : Fin 512) :
    val_main_v7 (F := Ideal) x1 (ix3 n g (0 : Fin 1)) = x1 (ix3 n g (0 : Fin 1)) := by
  rw [val_main_v7_apply, val_main_v6_apply, val_main_v3_apply, val_main_v1_apply, val_main_v2_apply, val_main_c_apply]
  have e : idx_main_v1 (idx_main_v7 (ix3 n g (0 : Fin 1))) = ix3 n g (0 : Fin 1) := by
    funext a; refine Fin.ext ?_
    match a with
    | ⟨0, _⟩ => show (n.val * 512 + g.val) / 512 = n.val; have := g.isLt; omega
    | ⟨1, _⟩ => show (n.val * 512 + g.val) / 1 % 512 = g.val; have := g.isLt; omega
    | ⟨2, _⟩ => rfl
  rw [e]
  have hlt : (x1 (ix3 n g (0 : Fin 1))).toNat < 65536 := hc (ix3 n g (0 : Fin 1))
  have h0 : IntOp.cmpi .slt (x1 (ix3 n g (0 : Fin 1))) 0#32 = 0#1 := by
    apply eq_zero_of_ne_one
    intro h
    have h' := (Predicate.slt_iff_toNat (by omega) (by decide)).mp h
    exact absurd h' (Nat.not_lt_zero _)
  rw [h0, select_zero]

/-- The look-up's result at (n, g, 0, j) is column j of the codebook row that code (n, g) names: the code is below
    65536, so reading it signed and clamping it to [0, 65535] changes nothing. -/
theorem ref_gather_value (x1 : IVec S11008x512x1 32) (x2 : FVec Ideal S1x65536x1x8 .f32) (hc : CodesOk x1)
    (n : Fin 11008) (g : Fin 512) (j : Fin 8) :
    val_main_v8 (F := Ideal) x1 x2 (ix4 n g (0 : Fin 1) j)
      = x2 (ix4 (0 : Fin 1) (⟨(x1 (ix3 n g (0 : Fin 1))).toNat % 65536, Nat.mod_lt _ (by norm_num)⟩ : Fin 65536)
          (0 : Fin 1) j) := by
  unfold val_main_v8
  rw [ref_gather_apply, val_main_v0_apply]
  have hlt : (x1 (ix3 n g (0 : Fin 1))).toNat < 65536 := hc (ix3 n g (0 : Fin 1))
  have hti : (x1 (ix3 n g (0 : Fin 1))).toInt.toNat = (x1 (ix3 n g (0 : Fin 1))).toNat := by
    rw [Predicate.toInt_eq_toNat_of_lt (by omega), Int.toNat_natCast]
  congr 1
  funext a; refine Fin.ext ?_
  match a with
  | ⟨0, _⟩ => rfl
  | ⟨1, _⟩ =>
    show ((min (val_main_v7 (F := Ideal) x1 (ix3 n g (0 : Fin 1))).toInt.toNat 65535 * 1 + 0) * 8 + j.val) / 8 % 65536
      = (x1 (ix3 n g (0 : Fin 1))).toNat % 65536
    rw [ref_start_index x1 hc, hti]; have := j.isLt; omega
  | ⟨2, _⟩ => rfl
  | ⟨3, _⟩ =>
    show ((min (val_main_v7 (F := Ideal) x1 (ix3 n g (0 : Fin 1))).toInt.toNat 65535 * 1 + 0) * 8 + j.val) % 8 = j.val
    have := j.isLt; omega

/-- The scaled weight the reference forms, at (n, d / 8, 0, d % 8): the weight W[n, d] times the scale of row n. -/
theorem ref_scaled_weight (x1 : IVec S11008x512x1 32) (x2 : FVec Ideal S1x65536x1x8 .f32) (x3 : FVec Ideal S11008x1x1x1 .f32)
    (hc : CodesOk x1) (n : Fin 11008) (d : Fin 4096) :
    val_main_v10 (F := Ideal) x1 x2 x3
        (ix4 n (⟨d.val / 8, by have := d.isLt; omega⟩ : Fin 512) (0 : Fin 1) (⟨d.val % 8, by omega⟩ : Fin 8))
      = weight x1 x2 n d * x3 (ix4 n (0 : Fin 1) (0 : Fin 1) (0 : Fin 1)) := by
  rw [val_main_v10_apply, ref_gather_value x1 x2 hc, val_main_v9_apply]
  have e : idx_main_v9 (ix4 n (⟨d.val / 8, by have := d.isLt; omega⟩ : Fin 512) (0 : Fin 1) (⟨d.val % 8, by omega⟩ : Fin 8))
      = ix4 n (0 : Fin 1) (0 : Fin 1) (0 : Fin 1) := by
    funext a
    match a with
    | ⟨0, _⟩ => rfl
    | ⟨1, _⟩ => rfl
    | ⟨2, _⟩ => rfl
    | ⟨3, _⟩ => rfl
  rw [e]
  rfl

/-- Column n of the matrix the reference multiplies by, at row d: after the two relayouts (the four-axis array read as
    [11008, 4096] with column d = 8 * (d / 8) + d % 8, then transposed) it is the scaled weight W[n, d] * scale[n]. -/
theorem ref_column_value (x1 : IVec S11008x512x1 32) (x2 : FVec Ideal S1x65536x1x8 .f32) (x3 : FVec Ideal S11008x1x1x1 .f32)
    (hc : CodesOk x1) (t : Fin 64) (n : Fin 11008) (d : Fin 4096) :
    val_main_v13 (F := Ideal) x1 x2 x3 (ridx_main_v14 (ix2 t n) d)
      = weight x1 x2 n d * x3 (ix4 n (0 : Fin 1) (0 : Fin 1) (0 : Fin 1)) := by
  rw [val_main_v13_apply, val_main_v12_apply, val_main_v11_apply]
  have e : idx_main_v11 (idx_main_v12 (idx_main_v13 (ridx_main_v14 (ix2 t n) d)))
      = ix4 n (⟨d.val / 8, by have := d.isLt; omega⟩ : Fin 512) (0 : Fin 1) (⟨d.val % 8, by omega⟩ : Fin 8) := by
    funext a; refine Fin.ext ?_
    have := d.isLt
    match a with
    | ⟨0, _⟩ => show (n.val * 4096 + d.val) / 4096 = n.val; omega
    | ⟨1, _⟩ => show (n.val * 4096 + d.val) / 8 % 512 = d.val / 8; omega
    | ⟨2, _⟩ => rfl
    | ⟨3, _⟩ => show (n.val * 4096 + d.val) % 8 = d.val % 8; omega
  rw [e]
  exact ref_scaled_weight x1 x2 x3 hc n d

theorem ref_value (x0 : FVec Ideal S64x4096 .f32) (x1 : IVec S11008x512x1 32) (x2 : FVec Ideal S1x65536x1x8 .f32)
    (x3 : FVec Ideal S11008x1x1x1 .f32) (x4 : FVec Ideal S11008 .f32) (hc : CodesOk x1) (t : Fin 64) (n : Fin 11008) :
    Cert.ReferenceIdeal.Read.val_main_v17 (F := Ideal) x0 x1 x2 x3 x4 (ix2 t n) = outRef x0 x1 x2 x3 x4 t n := by
  rw [val_main_v17_apply, val_main_v14_apply, val_main_v16_apply, val_main_v15_apply]
  have eb : idx_main_v15 (idx_main_v16 (ix2 t n)) = ix1 n := by
    funext a
    match a with
    | ⟨0, _⟩ => rfl
  rw [eb]
  unfold outRef
  show (∑ k : Fin 4096, _) + _ = _
  congr 1
  refine Finset.sum_congr rfl fun d _ => ?_
  rw [ref_column_value x1 x2 x3 hc t n d]
  have el : lidx_main_v14 (ix2 t n) d = ix2 t d := by
    funext a
    match a with
    | ⟨0, _⟩ => rfl
    | ⟨1, _⟩ => rfl
  rw [el]

end Cert.Dequant

end
-- ==== Proof.SpecLaw.lean ====
import proofs.«409782_j5781025980673_3_alg».proof.Proof.Spec
import Mathlib.Data.EReal.Basic
import Mathlib.Algebra.BigOperators.Ring.Finset

noncomputable section

open scoped BigOperators

namespace Cert.Dequant

open Idealize.ShloMosaic Idealize.ShloMosaic.ValueIdx

/-- The coercion of the reals into the extended reals commutes with a finite sum: it sends 0 to 0 and a sum of two
    reals to the sum of their images, so the claim follows by induction on the index set. -/
theorem coe_finset_sum_real {ι : Type*} (S : Finset ι) (f : ι → ℝ) :
    (∑ i ∈ S, (f i : EReal)) = ((∑ i ∈ S, f i : ℝ) : EReal) := by
  classical
  induction S using Finset.induction_on with
  | empty => simp
  | insert a s ha ih => rw [Finset.sum_insert ha, Finset.sum_insert ha, EReal.coe_add, ih]

/-- With x, the codebook and the scales real, every term of both sums is the image of a real number, so both sums are
    images of real sums; on the reals (∑ d, a d · w d) · s = ∑ d, a d · (w d · s), since multiplication distributes over
    a finite sum and is associative. The bias is the same last summand on both sides. -/
theorem outKernel_eq_outRef (x : (⟨2, ![64, 4096]⟩ : Shape).Idx → EReal) (codes : (⟨3, ![11008, 512, 1]⟩ : Shape).Idx → BitVec 32)
    (cb : (⟨4, ![1, 65536, 1, 8]⟩ : Shape).Idx → EReal) (sc : (⟨4, ![11008, 1, 1, 1]⟩ : Shape).Idx → EReal)
    (bias : (⟨1, ![11008]⟩ : Shape).Idx → EReal)
    (hx : ∀ i, ∃ r : ℝ, x i = (r : EReal)) (hcb : ∀ i, ∃ r : ℝ, cb i = (r : EReal)) (hsc : ∀ i, ∃ r : ℝ, sc i = (r : EReal))
    (t : Fin 64) (n : Fin 11008) :
    outKernel x codes cb sc bias t n = outRef x codes cb sc bias t n := by
  choose xr hxr using hx
  choose cr hcr using hcb
  choose sr hsr using hsc
  unfold outKernel outRef
  refine congrArg (· + bias (ix1 n)) ?_
  simp only [weight, hxr, hcr, hsr, ← EReal.coe_mul, coe_finset_sum_real, Finset.sum_mul, mul_assoc]

end Cert.Dequant

end
-- ==== Proof.Bridge.lean ====
/-
  The two programs' results are one function of the arguments.

  The kernel's result array was read off the run as `Gk`, a function of the four arrays the host operations before the
  region leave; those are the arguments re-laid (the activations and the gathered weights unchanged in value, the
  scales and bias as rows), so `Gk` is the specification `outKernel` of the five arguments. The reference's result, read
  operation by operation, is `outRef`; and `outKernel = outRef` where the activations, codebook and scales are real.
-/
import proofs.«409782_j5781025980673_3_alg».proof.Proof.DatKI
import proofs.«409782_j5781025980673_3_alg».proof.Proof.KHost
import proofs.«409782_j5781025980673_3_alg».proof.Proof.RefValue
import proofs.«409782_j5781025980673_3_alg».proof.Proof.SpecLaw

noncomputable section

open scoped BigOperators

namespace Cert.Dequant

open Idealize.ShloMosaic Idealize.ShloMosaic.ValueIdx Idealize.SL.Sem

/-- An index of the 64 × 11008 result by its two coordinates. -/
theorem out_idx (i : (⟨2, ![64, 11008]⟩ : Shape).Idx) :
    i = ix2 (⟨(i 0).val, (i 0).isLt⟩ : Fin 64) (⟨(i 1).val, (i 1).isLt⟩ : Fin 11008) :=
  funext fun a => by match a with | ⟨0, _⟩ => rfl | ⟨1, _⟩ => rfl

section Kernel

open Cert.KernelIdeal Cert.KernelIdeal.Gen Cert.KernelIdeal.Out

variable (m : (ℓ : Loc nD τ sig) → Buf (Elt Ideal) ℓ)

/-- The kernel's result array is the specification of the five arguments, when every code names a codebook row. -/
theorem Gk_eq_outKernel (c : Dev nD) (hc : CodesOk (m ((c.tc : Thread nD τ).loc main_arg1))) :
    Gk m c = fun i => outKernel (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      ⟨(i 0).val, (i 0).isLt⟩ ⟨(i 1).val, (i 1).isLt⟩ := by
  funext i
  unfold Gk gk outKernel
  have hX : ∀ (t : Fin 64) (d : Fin 4096), vX m c (ix2 t d) = (m ((c.tc : Thread nD τ).loc main_arg0) : S64x4096.Idx → EReal) (ix2 t d) :=
    fun t d => V_x m c t d
  have hW : ∀ (n : Fin 11008) (d : Fin 4096), vW m c (ix2 n d)
      = weight (m ((c.tc : Thread nD τ).loc main_arg1)) (m ((c.tc : Thread nD τ).loc main_arg2)) n d :=
    fun n d => V_weight m c hc n d
  have hS : ∀ n : Fin 11008, vS m c (ix2 (0 : Fin 1) n)
      = (m ((c.tc : Thread nD τ).loc main_arg3) : S11008x1x1x1.Idx → EReal) (ix4 n (0 : Fin 1) (0 : Fin 1) (0 : Fin 1)) :=
    fun n => V_scale m c n
  have hB : ∀ n : Fin 11008, vB m c (ix2 (0 : Fin 1) n) = (m ((c.tc : Thread nD τ).loc main_arg4) : S11008.Idx → EReal) (ix1 n) :=
    fun n => V_bias m c n
  rw [hS, hB]
  refine congrArg (fun s => s * _ + _) (Finset.sum_congr rfl fun d _ => ?_)
  rw [hX, hW]

end Kernel

section Reference

open Cert.ReferenceIdeal

/-- The reference's result is the same specification, when moreover the activations, codebook and scales are real. -/
theorem ref_eq_outKernel (x0 : FVec Ideal S64x4096 .f32) (x1 : IVec S11008x512x1 32) (x2 : FVec Ideal S1x65536x1x8 .f32)
    (x3 : FVec Ideal S11008x1x1x1 .f32) (x4 : FVec Ideal S11008 .f32) (hc : CodesOk x1)
    (hx : ∀ i, ∃ r : ℝ, x0 i = (r : EReal)) (hcb : ∀ i, ∃ r : ℝ, x2 i = (r : EReal)) (hsc : ∀ i, ∃ r : ℝ, x3 i = (r : EReal)) :
    Cert.ReferenceIdeal.Read.val_main_v17 (F := Ideal) x0 x1 x2 x3 x4
      = fun i => outKernel x0 x1 x2 x3 x4 ⟨(i 0).val, (i 0).isLt⟩ ⟨(i 1).val, (i 1).isLt⟩ := by
  funext i
  calc Cert.ReferenceIdeal.Read.val_main_v17 (F := Ideal) x0 x1 x2 x3 x4 i
      = Cert.ReferenceIdeal.Read.val_main_v17 (F := Ideal) x0 x1 x2 x3 x4
          (ix2 (⟨(i 0).val, (i 0).isLt⟩ : Fin 64) (⟨(i 1).val, (i 1).isLt⟩ : Fin 11008)) := congrArg _ (out_idx i)
    _ = outRef x0 x1 x2 x3 x4 ⟨(i 0).val, (i 0).isLt⟩ ⟨(i 1).val, (i 1).isLt⟩ := ref_value x0 x1 x2 x3 x4 hc _ _
    _ = outKernel x0 x1 x2 x3 x4 ⟨(i 0).val, (i 0).isLt⟩ ⟨(i 1).val, (i 1).isLt⟩ :=
        (outKernel_eq_outRef x0 x1 x2 x3 x4 hx hcb hsc _ _).symm

end Reference

end Cert.Dequant

end
-- ==== Proof.lean ====
/-
  The certificate of a dequantise-and-multiply layer: out[t, n] = (∑ d, x[t, d] · W[n, d]) · scale[n] + bias[n] for
  64 tokens, 4096 input and 11008 output features, where the weight matrix W is a table look-up — entry (n, d) is
  column d % 8 of the codebook row that code (n, d / 8) names.

  The kernel gathers W on the host, and a pipeline of six points multiplies the activations by 2048 rows of W at a time,
  scales the product column by column and adds the bias; the sixth block of rows overhangs the array (11008 = 5 · 2048
  + 768) and only its 768 rows inside the array are fetched and written back. The reference scales the gathered weights
  first and multiplies once. Both are defined only where every code names one of the codebook's 65536 rows (outside
  that range the reference indexes out of range), which is the precondition's domain beside the finiteness of the float
  inputs.

  The frames: each kernel program runs to its end whatever its staging blocks hold, and no operation writes an argument
  array; the reference's frame is its run with the result dropped. The ideal pass rewrote nothing, so the idealized kernel
  is the kernel's own text read at the extended reals. The values: the kernel's result array, read off its run block by
  block, and the reference's result, read operation by operation, are one function of the five arguments, because on
  the reals a factor common to every term of a finite sum may be taken out of the sum.
-/
import proofs.«409782_j5781025980673_3_alg».proof.Defs
import proofs.«409782_j5781025980673_3_alg».proof.Proof.Gen.Kernel
import proofs.«409782_j5781025980673_3_alg».proof.Proof.Gen.KernelIdeal
import proofs.«409782_j5781025980673_3_alg».proof.Proof.Gen.ReferenceIdeal
import proofs.«409782_j5781025980673_3_alg».proof.Proof.Gen.ReferenceIdeal.Run
import proofs.«409782_j5781025980673_3_alg».proof.Proof.Gen.ReferenceIdeal.Read
import proofs.«409782_j5781025980673_3_alg».proof.Proof.Gen.Pre_finite_inputs
import proofs.«409782_j5781025980673_3_alg».proof.Proof.BodyK
import proofs.«409782_j5781025980673_3_alg».proof.Proof.ObligKI
import proofs.«409782_j5781025980673_3_alg».proof.Proof.FinalKI
import proofs.«409782_j5781025980673_3_alg».proof.Proof.PreFacts
import proofs.«409782_j5781025980673_3_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Body.frame m ρ

/-- So does the idealized kernel. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the extended reals, from memories agreeing on the arguments, both programs end with the result array at the
    specification `outKernel` of the arguments: the kernel's by its run and the host operations read at an index, the
    reference's by its run and the law that takes the common scale out of the sum. -/
theorem algebraic : Cert.algebraic_KernelIdeal_ReferenceIdeal := by
  intro m ρ m' ρ' hpre hagree
  refine ⟨fun c => Cert.KernelIdeal.Out.Gk m c, ?_, ?_⟩
  · exact (θ_run Cert.KernelIdeal.defs _ _).mono (fun r h c =>
      ⟨((h c).1 4).trans (Cert.KernelIdeal.Out.final4 m c),
        ((h c).2 Cert.KernelIdeal.main_arg0 (Pipeline.mem_restRefs_of Cert.KernelIdeal.main_arg0 (by decide) (by decide))).trans (Cert.KernelIdeal.Gen.V_main_arg0 m c),
        ((h c).2 Cert.KernelIdeal.main_arg1 (Pipeline.mem_restRefs_of Cert.KernelIdeal.main_arg1 (by decide) (by decide))).trans (Cert.KernelIdeal.Gen.V_main_arg1 m c),
        ((h c).2 Cert.KernelIdeal.main_arg2 (Pipeline.mem_restRefs_of Cert.KernelIdeal.main_arg2 (by decide) (by decide))).trans (Cert.KernelIdeal.Gen.V_main_arg2 m c),
        ((h c).2 Cert.KernelIdeal.main_arg3 (Pipeline.mem_restRefs_of Cert.KernelIdeal.main_arg3 (by decide) (by decide))).trans (Cert.KernelIdeal.Gen.V_main_arg3 m c),
        ((h c).2 Cert.KernelIdeal.main_arg4 (Pipeline.mem_restRefs_of Cert.KernelIdeal.main_arg4 (by decide) (by decide))).trans (Cert.KernelIdeal.Gen.V_main_arg4 m c)⟩)
      (Cert.KernelIdeal.Out.run_main m ρ)
  · refine (θ_run Cert.ReferenceIdeal.defs _ _).mono (fun r h c => ⟨(h c).1.trans ?_, (h c).2⟩)
      (Cert.ReferenceIdeal.Value.run (F := Ideal) m' ρ')
    obtain ⟨hx, hcb, hsc, hc⟩ := Cert.Dequant.pre_decode _ _ _ _ _ (hpre c)
    rw [(hagree c).1, (hagree c).2.1, (hagree c).2.2.1, (hagree c).2.2.2.1, (hagree c).2.2.2.2]
    refine (Cert.ReferenceIdeal.Read.val_main_v17_eq _ _ _ _ _).trans ?_
    exact (Cert.Dequant.ref_eq_outKernel _ _ _ _ _ hc hx hcb hsc).trans (Cert.Dequant.Gk_eq_outKernel m c hc).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
